-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1x11 : Shape := ⟨2, ![1, 11]⟩
abbrev S1 : Shape := ⟨1, ![1]⟩
abbrev S1024x32 : Shape := ⟨2, ![1024, 32]⟩
abbrev S1024x256 : Shape := ⟨2, ![1024, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x11 : S_.BroadcastsInDim S1x11 (![] : Fin 0 → Fin S1x11.rank)
  reducesTo_S1x11_S_d0_1 : S1x11.ReducesTo [0, 1] S_
  bcast_S_S1 : S_.BroadcastsInDim S1 (![] : Fin 0 → Fin S1.rank)
  reducesTo_S1_S_d0 : S1.ReducesTo [0] S_
  bcast_S_S1024x32 : S_.BroadcastsInDim S1024x32 (![] : Fin 0 → Fin S1024x32.rank)
  reducesTo_S1024x32_S_d0_1 : S1024x32.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part2 {F : FTy → Type} [FloatOps F] (main_arg5 : IVec S1024x32 32) (main_arg6 : IVec S1024x256 32) (main_v29 : IVec S_ 1) (main_v31 : IVec S1024x32 1) (main_c_13 : IVec S_ 1) : IVec S_ 1 :=
  let main_v32 : IVec S_ 1 := (fun x v => Host.reduce IntOp.andi x v reducesTo_S1024x32_S_d0_1 h_S_) main_v31 main_c_13
  let main_c_14 : IVec S_ 32 := constantI S_ 32 100000#32
  let main_v33 : IVec S1024x32 32 := broadcastInDim S1024x32 ![] bcast_S_S1024x32 main_c_14
  let main_v34 : IVec S1024x32 1 := cmpi .slt main_arg5 main_v33
  let main_c_15 : IVec S_ 1 := constantI S_ 1 1#1
  let main_v35 : IVec S_ 1 := (fun x v => Host.reduce IntOp.andi x v reducesTo_S1024x32_S_d0_1 h_S_) main_v34 main_c_15
  let main_v36 : IVec S_ 1 := andi main_v32 main_v35
  let main_v37 : IVec S_ 1 := andi main_v29 main_v36
  let main_c_16 : IVec S_ 32 := constantI S_ 32 4294867296#32
  let main_v38 : IVec S1024x256 32 := broadcastInDim S1024x256 ![] bcast_S_S1024x256 main_c_16
  let main_v39 : IVec S1024x256 1 := cmpi .sge main_arg6 main_v38
  let main_c_17 : IVec S_ 1 := constantI S_ 1 1#1
  let main_v40 : IVec S_ 1 := (fun x v => Host.reduce IntOp.andi x v reducesTo_S1024x256_S_d0_1 h_S_) main_v39 main_c_17
  let main_c_18 : IVec S_ 32 := constantI S_ 32 100000#32
  let main_v41 : IVec S1024x256 32 := broadcastInDim S1024x256 ![] bcast_S_S1024x256 main_c_18
  let main_v42 : IVec S1024x256 1 := cmpi .slt main_arg6 main_v41
  let main_c_19 : IVec S_ 1 := constantI S_ 1 1#1
  let main_v43 : IVec S_ 1 := (fun x v => Host.reduce IntOp.andi x v reducesTo_S1024x256_S_d0_1 h_S_) main_v42 main_c_19
  let main_v44 : IVec S_ 1 := andi main_v40 main_v43
  let main_v45 : IVec S_ 1 := andi main_v37 main_v44
  main_v45

def fn_part1 {F : FTy → Type} [FloatOps F] (main_arg3 : IVec S1024x32 32) (main_arg4 : IVec S1024x256 32) (main_arg5 : IVec S1024x32 32) (main_arg6 : IVec S1024x256 32) (main_v13 : IVec S_ 1) (main_v15 : IVec S1024x32 1) (main_c_5 : IVec S_ 1) : IVec S_ 1 :=
  let main_v16 : IVec S_ 1 := (fun x v => Host.reduce IntOp.andi x v reducesTo_S1024x32_S_d0_1 h_S_) main_v15 main_c_5
  let main_c_6 : IVec S_ 32 := constantI S_ 32 100000#32
  let main_v17 : IVec S1024x32 32 := broadcastInDim S1024x32 ![] bcast_S_S1024x32 main_c_6
  let main_v18 : IVec S1024x32 1 := cmpi .slt main_arg3 main_v17
  let main_c_7 : IVec S_ 1 := constantI S_ 1 1#1
  let main_v19 : IVec S_ 1 := (fun x v => Host.reduce IntOp.andi x v reducesTo_S1024x32_S_d0_1 h_S_) main_v18 main_c_7
  let main_v20 : IVec S_ 1 := andi main_v16 main_v19
  let main_v21 : IVec S_ 1 := andi main_v13 main_v20
  let main_c_8 : IVec S_ 32 := constantI S_ 32 4294867296#32
  let main_v22 : IVec S1024x256 32 := broadcastInDim S1024x256 ![] bcast_S_S1024x256 main_c_8
  let main_v23 : IVec S1024x256 1 := cmpi .sge main_arg4 main_v22
  let main_c_9 : IVec S_ 1 := constantI S_ 1 1#1
  let main_v24 : IVec S_ 1 := (fun x v => Host.reduce IntOp.andi x v reducesTo_S1024x256_S_d0_1 h_S_) main_v23 main_c_9
  let main_c_10 : IVec S_ 32 := constantI S_ 32 100000#32
  let main_v25 : IVec S1024x256 32 := broadcastInDim S1024x256 ![] bcast_S_S1024x256 main_c_10
  let main_v26 : IVec S1024x256 1 := cmpi .slt main_arg4 main_v25
  let main_c_11 : IVec S_ 1 := constantI S_ 1 1#1
  let main_v27 : IVec S_ 1 := (fun x v => Host.reduce IntOp.andi x v reducesTo_S1024x256_S_d0_1 h_S_) main_v26 main_c_11
  let main_v28 : IVec S_ 1 := andi main_v24 main_v27
  let main_v29 : IVec S_ 1 := andi main_v21 main_v28
  let main_c_12 : IVec S_ 32 := constantI S_ 32 4294867296#32
  let main_v30 : IVec S1024x32 32 := broadcastInDim S1024x32 ![] bcast_S_S1024x32 main_c_12
  let main_v31 : IVec S1024x32 1 := cmpi .sge main_arg5 main_v30
  let main_c_13 : IVec S_ 1 := constantI S_ 1 1#1
  fn_part2 (F := F) main_arg5 main_arg6 main_v29 main_v31 main_c_13

def fn {F : FTy → Type} [FloatOps F] (main_arg0 : FVec F S100000x128 .f32) (main_arg1 : FVec F S1x11 .f32) (main_arg2 : FVec F S1 .f32) (main_arg3 : IVec S1024x32 32) (main_arg4 : IVec S1024x256 32) (main_arg5 : IVec S1024x32 32) (main_arg6 : IVec S1024x256 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x11 .f32 := Host.absf main_arg1
  let main_cst_0 : FVec F S_ .f32 := constant S_ .f32 0x7F800000#32
  let main_v5 : FVec F S1x11 .f32 := broadcastInDim S1x11 ![] bcast_S_S1x11 main_cst_0
  let main_v6 : IVec S1x11 1 := cmpf .olt main_v4 main_v5
  let main_c_1 : IVec S_ 1 := constantI S_ 1 1#1
  let main_v7 : IVec S_ 1 := (fun x v => Host.reduce IntOp.andi x v reducesTo_S1x11_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 4294867296#32
  let main_v14 : IVec S1024x32 32 := broadcastInDim S1024x32 ![] bcast_S_S1024x32 main_c_4
  let main_v15 : IVec S1024x32 1 := cmpi .sge main_arg3 main_v14
  let main_c_5 : IVec S_ 1 := constantI S_ 1 1#1
  fn_part1 (F := F) main_arg3 main_arg4 main_arg5 main_arg6 main_v13 main_v15 main_c_5
-- ==== Kernel.lean ====
abbrev S100000x128 : Shape := ⟨2, ![100000, 128]⟩
abbrev S1x11 : Shape := ⟨2, ![1, 11]⟩
abbrev S1 : Shape := ⟨1, ![1]⟩
abbrev S1024x32 : Shape := ⟨2, ![1024, 32]⟩
abbrev S1024x256 : Shape := ⟨2, ![1024, 256]⟩
abbrev S_ : Shape := ⟨0, ![]⟩
abbrev S1024x32x1 : Shape := ⟨3, ![1024, 32, 1]⟩
abbrev S1x1x1 : Shape := ⟨3, ![1, 1, 1]⟩
abbrev S1024x32x128 : Shape := ⟨3, ![1024, 32, 128]⟩
abbrev S1024x256x1 : Shape := ⟨3, ![1024, 256, 1]⟩
abbrev S1024x256x128 : Shape := ⟨3, ![1024, 256, 128]⟩
abbrev S1024x1 : Shape := ⟨2, ![1024, 1]⟩
abbrev S64x32x128 : Shape := ⟨3, ![64, 32, 128]⟩
abbrev S64x256x128 : Shape := ⟨3, ![64, 256, 128]⟩
abbrev S64x1 : Shape := ⟨2, ![64, 1]⟩
abbrev S64x32 : Shape := ⟨2, ![64, 32]⟩
abbrev S64x256 : Shape := ⟨2, ![64, 256]⟩
abbrev S64x32x256 : Shape := ⟨3, ![64, 32, 256]⟩
abbrev S64x32x1 : Shape := ⟨3, ![64, 32, 1]⟩
abbrev S64x1x256 : Shape := ⟨3, ![64, 1, 256]⟩
abbrev S64 : Shape := ⟨1, ![64]⟩
abbrev S1x1 : Shape := ⟨2, ![1, 1]⟩

abbrev nBuf : Space → Nat
  | .hbm => 100
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1x11, .f32⟩
  | .hbm, ⟨2, _⟩ => ⟨S1, .f32⟩
  | .hbm, ⟨3, _⟩ => ⟨S1024x32, .i32⟩
  | .hbm, ⟨4, _⟩ => ⟨S1024x256, .i32⟩
  | .hbm, ⟨5, _⟩ => ⟨S1024x32, .i32⟩
  | .hbm, ⟨6, _⟩ => ⟨S1024x256, .i32⟩
  | .hbm, ⟨7, _⟩ => ⟨S_, .i32⟩
  | .hbm, ⟨8, _⟩ => ⟨S1024x32, .i32⟩
  | .hbm, ⟨9, _⟩ => ⟨S1024x32, .i1⟩
  | .hbm, ⟨10, _⟩ => ⟨S_, .i32⟩
  | .hbm, ⟨11, _⟩ => ⟨S1024x32, .i32⟩
  | .hbm, ⟨12, _⟩ => ⟨S1024x32, .i32⟩
  | .hbm, ⟨13, _⟩ => ⟨S1024x32, .i32⟩
  | .hbm, ⟨14, _⟩ => ⟨S1024x32x1, .i32⟩
  | .hbm, ⟨15, _⟩ => ⟨S1, .i32⟩
  | .hbm, ⟨16, _⟩ => ⟨S_, .i32⟩
  | .hbm, ⟨17, _⟩ => ⟨S1024x32x1, .i32⟩
  | .hbm, ⟨18, _⟩ => ⟨S1024x32x1, .i1⟩
  | .hbm, ⟨19, _⟩ => ⟨S1x1x1, .i32⟩
  | .hbm, ⟨20, _⟩ => ⟨S1024x32x1, .i32⟩
  | .hbm, ⟨21, _⟩ => ⟨S1024x32x1, .i1⟩
  | .hbm, ⟨22, _⟩ => ⟨S1024x32x1, .i1⟩
  | .hbm, ⟨23, _⟩ => ⟨S_, .i1⟩
  | .hbm, ⟨24, _⟩ => ⟨S1024x32, .i1⟩
  | .hbm, ⟨25, _⟩ => ⟨S1024x32x128, .f32⟩
  | .hbm, ⟨26, _⟩ => ⟨S1024x32x128, .i1⟩
  | .hbm, ⟨27, _⟩ => ⟨S_, .f32⟩
  | .hbm, ⟨28, _⟩ => ⟨S1024x32x128, .f32⟩
  | .hbm, ⟨29, _⟩ => ⟨S1024x32x128, .f32⟩
  | .hbm, ⟨30, _⟩ => ⟨S_, .i32⟩
  | .hbm, ⟨31, _⟩ => ⟨S1024x256, .i32⟩
  | .hbm, ⟨32, _⟩ => ⟨S1024x256, .i1⟩
  | .hbm, ⟨33, _⟩ => ⟨S_, .i32⟩
  | .hbm, ⟨34, _⟩ => ⟨S1024x256, .i32⟩
  | .hbm, ⟨35, _⟩ => ⟨S1024x256, .i32⟩
  | .hbm, ⟨36, _⟩ => ⟨S1024x256, .i32⟩
  | .hbm, ⟨37, _⟩ => ⟨S1024x256x1, .i32⟩
  | .hbm, ⟨38, _⟩ => ⟨S1, .i32⟩
  | .hbm, ⟨39, _⟩ => ⟨S_, .i32⟩
  | .hbm, ⟨40, _⟩ => ⟨S1024x256x1, .i32⟩
  | .hbm, ⟨41, _⟩ => ⟨S1024x256x1, .i1⟩
  | .hbm, ⟨42, _⟩ => ⟨S1x1x1, .i32⟩
  | .hbm, ⟨43, _⟩ => ⟨S1024x256x1, .i32⟩
  | .hbm, ⟨44, _⟩ => ⟨S1024x256x1, .i1⟩
  | .hbm, ⟨45, _⟩ => ⟨S1024x256x1, .i1⟩
  | .hbm, ⟨46, _⟩ => ⟨S_, .i1⟩
  | .hbm, ⟨47, _⟩ => ⟨S1024x256, .i1⟩
  | .hbm, ⟨48, _⟩ => ⟨S1024x256x128, .f32⟩
  | .hbm, ⟨49, _⟩ => ⟨S1024x256x128, .i1⟩
  | .hbm, ⟨50, _⟩ => ⟨S_, .f32⟩
  | .hbm, ⟨51, _⟩ => ⟨S1024x256x128, .f32⟩
  | .hbm, ⟨52, _⟩ => ⟨S1024x256x128, .f32⟩
  | .hbm, ⟨53, _⟩ => ⟨S_, .i32⟩
  | .hbm, ⟨54, _⟩ => ⟨S1024x32, .i32⟩
  | .hbm, ⟨55, _⟩ => ⟨S1024x32, .i1⟩
  | .hbm, ⟨56, _⟩ => ⟨S_, .i32⟩
  | .hbm, ⟨57, _⟩ => ⟨S1024x32, .i32⟩
  | .hbm, ⟨58, _⟩ => ⟨S1024x32, .i32⟩
  | .hbm, ⟨59, _⟩ => ⟨S1024x32, .i32⟩
  | .hbm, ⟨60, _⟩ => ⟨S1024x32x1, .i32⟩
  | .hbm, ⟨61, _⟩ => ⟨S1, .i32⟩
  | .hbm, ⟨62, _⟩ => ⟨S_, .i32⟩
  | .hbm, ⟨63, _⟩ => ⟨S1024x32x1, .i32⟩
  | .hbm, ⟨64, _⟩ => ⟨S1024x32x1, .i1⟩
  | .hbm, ⟨65, _⟩ => ⟨S1x1x1, .i32⟩
  | .hbm, ⟨66, _⟩ => ⟨S1024x32x1, .i32⟩
  | .hbm, ⟨67, _⟩ => ⟨S1024x32x1, .i1⟩
  | .hbm, ⟨68, _⟩ => ⟨S1024x32x1, .i1⟩
  | .hbm, ⟨69, _⟩ => ⟨S_, .i1⟩
  | .hbm, ⟨70, _⟩ => ⟨S1024x32, .i1⟩
  | .hbm, ⟨71, _⟩ => ⟨S1024x32x128, .f32⟩
  | .hbm, ⟨72, _⟩ => ⟨S1024x32x128, .i1⟩
  | .hbm, ⟨73, _⟩ => ⟨S_, .f32⟩
  | .hbm, ⟨74, _⟩ => ⟨S1024x32x128, .f32⟩
  | .hbm, ⟨75, _⟩ => ⟨S1024x32x128, .f32⟩
  | .hbm, ⟨76, _⟩ => ⟨S_, .i32⟩
  | .hbm, ⟨77, _⟩ => ⟨S1024x256, .i32⟩
  | .hbm, ⟨78, _⟩ => ⟨S1024x256, .i1⟩
  | .hbm, ⟨79, _⟩ => ⟨S_, .i32⟩
  | .hbm, ⟨80, _⟩ => ⟨S1024x256, .i32⟩
  | .hbm, ⟨81, _⟩ => ⟨S1024x256, .i32⟩
  | .hbm, ⟨82, _⟩ => ⟨S1024x256, .i32⟩
  | .hbm, ⟨83, _⟩ => ⟨S1024x256x1, .i32⟩
  | .hbm, ⟨84, _⟩ => ⟨S1, .i32⟩
  | .hbm, ⟨85, _⟩ => ⟨S_, .i32⟩
  | .hbm, ⟨86, _⟩ => ⟨S1024x256x1, .i32⟩
  | .hbm, ⟨87, _⟩ => ⟨S1024x256x1, .i1⟩
  | .hbm, ⟨88, _⟩ => ⟨S1x1x1, .i32⟩
  | .hbm, ⟨89, _⟩ => ⟨S1024x256x1, .i32⟩
  | .hbm, ⟨90, _⟩ => ⟨S1024x256x1, .i1⟩
  | .hbm, ⟨91, _⟩ => ⟨S1024x256x1, .i1⟩
  | .hbm, ⟨92, _⟩ => ⟨S_, .i1⟩
  | .hbm, ⟨93, _⟩ => ⟨S1024x256, .i1⟩
  | .hbm, ⟨94, _⟩ => ⟨S1024x256x128, .f32⟩
  | .hbm, ⟨95, _⟩ => ⟨S1024x256x128, .i1⟩
  | .hbm, ⟨96, _⟩ => ⟨S_, .f32⟩
  | .hbm, ⟨97, _⟩ => ⟨S1024x256x128, .f32⟩
  | .hbm, ⟨98, _⟩ => ⟨S1024x256x128, .f32⟩
  | .hbm, ⟨99, _⟩ => ⟨S1024x1, .f32⟩
  | .local _ .vmem, ⟨0, _⟩ => ⟨S64x32x128, .f32⟩
  | .local _ .vmem, ⟨1, _⟩ => ⟨S64x32x128, .f32⟩
  | .local _ .vmem, ⟨2, _⟩ => ⟨S64x256x128, .f32⟩
  | .local _ .vmem, ⟨3, _⟩ => ⟨S64x256x128, .f32⟩
  | .local _ .vmem, ⟨4, _⟩ => ⟨S64x32x128, .f32⟩
  | .local _ .vmem, ⟨5, _⟩ => ⟨S64x32x128, .f32⟩
  | .local _ .vmem, ⟨6, _⟩ => ⟨S64x256x128, .f32⟩
  | .local _ .vmem, ⟨7, _⟩ => ⟨S64x256x128, .f32⟩
  | .local _ .vmem, ⟨8, _⟩ => ⟨S1x11, .f32⟩
  | .local _ .vmem, ⟨9, _⟩ => ⟨S1, .f32⟩
  | .local _ .vmem, ⟨10, _⟩ => ⟨S64x1, .f32⟩
  | .local _ .vmem, ⟨11, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v2 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_call3_cst : Ref sig .tc := ⟨.hbm, 96, rfl⟩
abbrev main_call3_v15 : Ref sig .tc := ⟨.hbm, 97, rfl⟩
abbrev main_v3 : Ref sig .tc := ⟨.hbm, 98, rfl⟩
abbrev main_v4 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x11 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1024x32 : S_.BroadcastsInDim S1024x32 (![] : Fin 0 → Fin S1024x32.rank)
  bcast_S1024x32_S1024x32x1_0_1 : S1024x32.BroadcastsInDim S1024x32x1 (![0, 1] : Fin 2 → Fin S1024x32x1.rank)
  bcast_S_S1024x32x1 : S_.BroadcastsInDim S1024x32x1 (![] : Fin 0 → Fin S1024x32x1.rank)
  bcast_S1_S1x1x1_2 : S1.BroadcastsInDim S1x1x1 (![2] : Fin 1 → Fin S1x1x1.rank)
  bcast_S1x1x1_S1024x32x1_0_1_2 : S1x1x1.BroadcastsInDim S1024x32x1 (![0, 1, 2] : Fin 3 → Fin S1024x32x1.rank)
  reducesTo_S1024x32x1_S1024x32_d2 : S1024x32x1.ReducesTo [2] S1024x32
  h_S_ : 0 < S_.numel
  bcast_S1024x32_S1024x32x128_0_1 : S1024x32.BroadcastsInDim S1024x32x128 (![0, 1] : Fin 2 → Fin S1024x32x128.rank)
  bcast_S_S1024x32x128 : S_.BroadcastsInDim S1024x32x128 (![] : Fin 0 → Fin S1024x32x128.rank)
  bcast_S_S1024x256 : S_.BroadcastsInDim S1024x256 (![] : Fin 0 → Fin S1024x256.rank)
  bcast_S1024x256_S1024x256x1_0_1 : S1024x256.BroadcastsInDim S1024x256x1 (![0, 1] : Fin 2 → Fin S1024x256x1.rank)
  bcast_S_S1024x256x1 : S_.BroadcastsInDim S1024x256x1 (![] : Fin 0 → Fin S1024x256x1.rank)
  bcast_S1x1x1_S1024x256x1_0_1_2 : S1x1x1.BroadcastsInDim S1024x256x1 (![0, 1, 2] : Fin 3 → Fin S1024x256x1.rank)
  reducesTo_S1024x256x1_S1024x256_d2 : S1024x256x1.ReducesTo [2] S1024x256
  bcast_S1024x256_S1024x256x128_0_1 : S1024x256.BroadcastsInDim S1024x256x128 (![0, 1] : Fin 2 → Fin S1024x256x128.rank)
  bcast_S_S1024x256x128 : S_.BroadcastsInDim S1024x256x128 (![] : Fin 0 → Fin S1024x256x128.rank)
  inb_S1x11_S1x11_0_0 : ∀ a, (![0, 0] : Fin 2 → Nat) a + S1x11.size a ≤ S1x11.size a
  h_S1x11 : 0 < S1x11.numel
  inb_S1_S1_0 : ∀ a, (![0] : Fin 1 → Nat) a + S1.size a ≤ S1.size a
  h_S1 : 0 < S1.numel
  inb_S64x32x128_S64x32x128_0_0_0 : ∀ a, (![0, 0, 0] : Fin 3 → Nat) a + S64x32x128.size a ≤ S64x32x128.size a
  h_S64x32x128 : 0 < S64x32x128.numel
  shapeCasts_S64x32x128_S64x32x128 : S64x32x128.ShapeCasts S64x32x128
  inb_S64x256x128_S64x256x128_0_0_0 : ∀ a, (![0, 0, 0] : Fin 3 → Nat) a + S64x256x128.size a ≤ S64x256x128.size a
  h_S64x256x128 : 0 < S64x256x128.numel
  shapeCasts_S64x256x128_S64x256x128 : S64x256x128.ShapeCasts S64x256x128
  reduces_S64x32x128_S64x32 : S64x32x128.Reduces [2] S64x32
  reduces_S64x256x128_S64x256 : S64x256x128.Reduces [2] S64x256
  shapeCasts_S64x32_S64x32x1 : S64x32.ShapeCasts S64x32x1
  shapeCasts_S64x256_S64x1x256 : S64x256.ShapeCasts S64x1x256
  broadcasts_S64x32x1_S64x32x256 : S64x32x1.Broadcasts S64x32x256
  broadcasts_S64x1x256_S64x32x256 : S64x1x256.Broadcasts S64x32x256
  inpos_S1_p0 : ∀ a, (![0] : Fin 1 → Nat) a < S1.size a
  reduces_S64x32x256_S64x32 : S64x32x256.Reduces [2] S64x32
  reduces_S64x32_S64 : S64x32.Reduces [1] S64
  slices_S1x11_o0_0_S1x1 : S1x11.Slices ![0, 0] S1x1
  inpos_S1x1_p0_0 : ∀ a, (![0, 0] : Fin 2 → Nat) a < S1x1.size a
  slices_S1x11_o0_1_S1x1 : S1x11.Slices ![0, 1] S1x1
  slices_S1x11_o0_2_S1x1 : S1x11.Slices ![0, 2] S1x1
  slices_S1x11_o0_3_S1x1 : S1x11.Slices ![0, 3] S1x1
  slices_S1x11_o0_4_S1x1 : S1x11.Slices ![0, 4] S1x1
  slices_S1x11_o0_5_S1x1 : S1x11.Slices ![0, 5] S1x1
  slices_S1x11_o0_6_S1x1 : S1x11.Slices ![0, 6] S1x1
  slices_S1x11_o0_7_S1x1 : S1x11.Slices ![0, 7] S1x1
  slices_S1x11_o0_8_S1x1 : S1x11.Slices ![0, 8] S1x1
  slices_S1x11_o0_9_S1x1 : S1x11.Slices ![0, 9] S1x1
  slices_S1x11_o0_10_S1x1 : S1x11.Slices ![0, 10] S1x1
  inb_S64x1_S64x1_0_0 : ∀ a, (![0, 0] : Fin 2 → Nat) a + S64x1.size a ≤ S64x1.size a
  h_S64x1 : 0 < S64x1.numel
  shapeCasts_S64x1_S64 : S64x1.ShapeCasts S64
  shapeCasts_S64_S64x1 : S64.ShapeCasts S64x1
  gather_S100000x128_S1024x32x1_S1024x32x128_2_0_n_n_0_2_1128_wf : GatherDims.WF S100000x128 S1024x32x1 S1024x32x128 [2] [0] [] [0] [] 2 ![1, 128]
  gather_S100000x128_S1024x256x1_S1024x256x128_2_0_n_n_0_2_1128_wf : GatherDims.WF S100000x128 S1024x256x1 S1024x256x128 [2] [0] [] [0] [] 2 ![1, 128]
  dot_S64x32x128_S64x256x128_S64x32x256_2_2_1_1_0_0_wf : DotDims.WF S64x32x128 S64x256x128 S64x32x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x128.size a ≤ S1024x32x128.size a
  hwx0_0 : ∀ i : grid0.Coords, EltTy.bits .f32 = 32 ∨ (Rect.block (s := S1024x32x128) S64x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256x128.size a ≤ S1024x256x128.size a
  hwx0_1 : ∀ i : grid0.Coords, EltTy.bits .f32 = 32 ∨ (Rect.block (s := S1024x256x128) S64x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x32x128.size a ≤ S1024x32x128.size a
  hwx0_2 : ∀ i : grid0.Coords, EltTy.bits .f32 = 32 ∨ (Rect.block (s := S1024x32x128) S64x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256x128.size a ≤ S1024x256x128.size a
  hwx0_3 : ∀ i : grid0.Coords, EltTy.bits .f32 = 32 ∨ (Rect.block (s := S1024x256x128) S64x256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x11.size a ≤ S1x11.size a
  hwx0_4 : ∀ i : grid0.Coords, EltTy.bits .f32 = 32 ∨ (Rect.block (s := S1x11) S1x11.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S1024x1.size a
  hwx0_6 : ∀ i : grid0.Coords, EltTy.bits .f32 = 32 ∨ (Rect.block (s := S1024x1) S64x1.size (cc0_transform_6 i) (hinb0_6 i)).WholeWords (EltTy.packing .f32)

variable [Facts₀]

def gather_S100000x128_S1024x32x1_S1024x32x128_2_0_n_n_0_2_1128 : GatherDims S100000x128 S1024x32x1 S1024x32x128 where
  offsetDims := [2]
  collapsedSliceDims := [0]
  operandBatchingDims := []
  startIndicesBatchingDims := []
  startIndexMap := [0]
  indexVectorDim := 2
  sliceSizes := ![1, 128]
  wf := gather_S100000x128_S1024x32x1_S1024x32x128_2_0_n_n_0_2_1128_wf
def gather_S100000x128_S1024x256x1_S1024x256x128_2_0_n_n_0_2_1128 : GatherDims S100000x128 S1024x256x1 S1024x256x128 where
  offsetDims := [2]
  collapsedSliceDims := [0]
  operandBatchingDims := []
  startIndicesBatchingDims := []
  startIndexMap := [0]
  indexVectorDim := 2
  sliceSizes := ![1, 128]
  wf := gather_S100000x128_S1024x256x1_S1024x256x128_2_0_n_n_0_2_1128_wf
def dot_S64x32x128_S64x256x128_S64x32x256_2_2_1_1_0_0 : DotDims S64x32x128 S64x256x128 S64x32x256 where
  lhsContracting := [2]
  rhsContracting := [2]
  lhsNonContracting := [1]
  rhsNonContracting := [1]
  lhsBatch := [0]
  rhsBatch := [0]
  wf := dot_S64x32x128_S64x256x128_S64x32x256_2_2_1_1_0_0_wf

abbrev win0_0 : Pipeline.Window sig grid0 :=
  Pipeline.Window.ofSpec (Memref.whole main_v0) S64x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x11.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S64x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1x11 : Shape := ⟨2, ![1, 11]⟩
abbrev S1 : Shape := ⟨1, ![1]⟩
abbrev S1024x32 : Shape := ⟨2, ![1024, 32]⟩
abbrev S1024x256 : Shape := ⟨2, ![1024, 256]⟩
abbrev S11 : Shape := ⟨1, ![11]⟩
abbrev S_ : Shape := ⟨0, ![]⟩
abbrev S1024x32x1 : Shape := ⟨3, ![1024, 32, 1]⟩
abbrev S1024x32x128 : Shape := ⟨3, ![1024, 32, 128]⟩
abbrev S1024x256x1 : Shape := ⟨3, ![1024, 256, 1]⟩
abbrev S1024x256x128 : Shape := ⟨3, ![1024, 256, 128]⟩
abbrev S1024x32x256 : Shape := ⟨3, ![1024, 32, 256]⟩
abbrev S1024x1x256 : Shape := ⟨3, ![1024, 1, 256]⟩
abbrev S1024x32x256x1 : Shape := ⟨4, ![1024, 32, 256, 1]⟩
abbrev S1x1x1x11 : Shape := ⟨4, ![1, 1, 1, 11]⟩
abbrev S1024x32x256x11 : Shape := ⟨4, ![1024, 32, 256, 11]⟩
abbrev S1024x32x11 : Shape := ⟨3, ![1024, 32, 11]⟩
abbrev S1024x11 : Shape := ⟨2, ![1024, 11]⟩
abbrev S11x1 : Shape := ⟨2, ![11, 1]⟩
abbrev S1024x1 : Shape := ⟨2, ![1024, 1]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S1x11, .f32⟩
  | 2 => ⟨S1, .f32⟩
  | 3 => ⟨S1024x32, .i32⟩
  | 4 => ⟨S1024x256, .i32⟩
  | 5 => ⟨S1024x32, .i32⟩
  | 6 => ⟨S1024x256, .i32⟩
  | 7 => ⟨S11, .f32⟩
  | 8 => ⟨S11, .f32⟩
  | 9 => ⟨S_, .i32⟩
  | 10 => ⟨S1024x32, .i32⟩
  | 11 => ⟨S1024x32, .i1⟩
  | 12 => ⟨S_, .i32⟩
  | 13 => ⟨S1024x32, .i32⟩
  | 14 => ⟨S1024x32, .i32⟩
  | 15 => ⟨S1024x32, .i32⟩
  | 16 => ⟨S1024x32x1, .i32⟩
  | 17 => ⟨S1024x32x128, .f32⟩
  | 18 => ⟨S_, .i32⟩
  | 19 => ⟨S1024x256, .i32⟩
  | 20 => ⟨S1024x256, .i1⟩
  | 21 => ⟨S_, .i32⟩
  | 22 => ⟨S1024x256, .i32⟩
  | 23 => ⟨S1024x256, .i32⟩
  | 24 => ⟨S1024x256, .i32⟩
  | 25 => ⟨S1024x256x1, .i32⟩
  | 26 => ⟨S1024x256x128, .f32⟩
  | 27 => ⟨S1024x32x128, .f32⟩
  | 28 => ⟨S_, .f32⟩
  | 29 => ⟨S1024x32, .f32⟩
  | 30 => ⟨S1024x32, .f32⟩
  | 31 => ⟨S1024x256x128, .f32⟩
  | 32 => ⟨S_, .f32⟩
  | 33 => ⟨S1024x256, .f32⟩
  | 34 => ⟨S1024x256, .f32⟩
  | 35 => ⟨S1024x32x256, .f32⟩
  | 36 => ⟨S1024x32x1, .f32⟩
  | 37 => ⟨S1024x1x256, .f32⟩
  | 38 => ⟨S1024x32x256, .f32⟩
  | 39 => ⟨S1024x32x256, .f32⟩
  | 40 => ⟨S1024x32x256, .f32⟩
  | 41 => ⟨S_, .f32⟩
  | 42 => ⟨S1024x32x256, .f32⟩
  | 43 => ⟨S1024x32x256, .f32⟩
  | 44 => ⟨S1024x32x256, .f32⟩
  | 45 => ⟨S1024x32x256x1, .f32⟩
  | 46 => ⟨S1x1x1x11, .f32⟩
  | 47 => ⟨S1024x32x256x11, .f32⟩
  | 48 => ⟨S1024x32x256x11, .f32⟩
  | 49 => ⟨S1024x32x256x11, .f32⟩
  | 50 => ⟨S1x1x1x11, .f32⟩
  | 51 => ⟨S1024x32x256x11, .f32⟩
  | 52 => ⟨S1024x32x256x11, .f32⟩
  | 53 => ⟨S_, .f32⟩
  | 54 => ⟨S1024x32x256x11, .f32⟩
  | 55 => ⟨S1024x32x256x11, .f32⟩
  | 56 => ⟨S1024x32x256x11, .f32⟩
  | 57 => ⟨S1024x32x256x11, .f32⟩
  | 58 => ⟨S_, .f32⟩
  | 59 => ⟨S1024x32x11, .f32⟩
  | 60 => ⟨S1024x32x11, .f32⟩
  | 61 => ⟨S_, .f32⟩
  | 62 => ⟨S1024x11, .f32⟩
  | 63 => ⟨S11x1, .f32⟩
  | 64 => ⟨S1024x1, .f32⟩
  | 65 => ⟨S1x1, .f32⟩
  | 66 => ⟨S1024x1, .f32⟩
  | 67 => ⟨S1024x1, .f32⟩
  | 68 => ⟨S_, .i32⟩
  | 69 => ⟨S1024x32, .i32⟩
  | 70 => ⟨S1024x32, .i1⟩
  | 71 => ⟨S_, .i32⟩
  | 72 => ⟨S1024x32, .i32⟩
  | 73 => ⟨S1024x32, .i32⟩
  | 74 => ⟨S1024x32, .i32⟩
  | 75 => ⟨S1024x32x1, .i32⟩
  | 76 => ⟨S1024x32x128, .f32⟩
  | 77 => ⟨S_, .i32⟩
  | 78 => ⟨S1024x256, .i32⟩
  | 79 => ⟨S1024x256, .i1⟩
  | 80 => ⟨S_, .i32⟩
  | 81 => ⟨S1024x256, .i32⟩
  | 82 => ⟨S1024x256, .i32⟩
  | 83 => ⟨S1024x256, .i32⟩
  | 84 => ⟨S1024x256x1, .i32⟩
  | 85 => ⟨S1024x256x128, .f32⟩
  | 86 => ⟨S1024x32x128, .f32⟩
  | 87 => ⟨S_, .f32⟩
  | 88 => ⟨S1024x32, .f32⟩
  | 89 => ⟨S1024x32, .f32⟩
  | 90 => ⟨S1024x256x128, .f32⟩
  | 91 => ⟨S_, .f32⟩
  | 92 => ⟨S1024x256, .f32⟩
  | 93 => ⟨S1024x256, .f32⟩
  | 94 => ⟨S1024x32x256, .f32⟩
  | 95 => ⟨S1024x32x1, .f32⟩
  | 96 => ⟨S1024x1x256, .f32⟩
  | 97 => ⟨S1024x32x256, .f32⟩
  | 98 => ⟨S1024x32x256, .f32⟩
  | 99 => ⟨S1024x32x256, .f32⟩
  | 100 => ⟨S_, .f32⟩
  | 101 => ⟨S1024x32x256, .f32⟩
  | 102 => ⟨S1024x32x256, .f32⟩
  | 103 => ⟨S1024x32x256, .f32⟩
  | 104 => ⟨S1024x32x256x1, .f32⟩
  | 105 => ⟨S1x1x1x11, .f32⟩
  | 106 => ⟨S1024x32x256x11, .f32⟩
  | 107 => ⟨S1024x32x256x11, .f32⟩
  | 108 => ⟨S1024x32x256x11, .f32⟩
  | 109 => ⟨S1x1x1x11, .f32⟩
  | 110 => ⟨S1024x32x256x11, .f32⟩
  | 111 => ⟨S1024x32x256x11, .f32⟩
  | 112 => ⟨S_, .f32⟩
  | 113 => ⟨S1024x32x256x11, .f32⟩
  | 114 => ⟨S1024x32x256x11, .f32⟩
  | 115 => ⟨S1024x32x256x11, .f32⟩
  | 116 => ⟨S1024x32x256x11, .f32⟩
  | 117 => ⟨S_, .f32⟩
  | 118 => ⟨S1024x32x11, .f32⟩
  | 119 => ⟨S1024x32x11, .f32⟩
  | 120 => ⟨S_, .f32⟩
  | 121 => ⟨S1024x11, .f32⟩
  | 122 => ⟨S11x1, .f32⟩
  | 123 => ⟨S1024x1, .f32⟩
  | 124 => ⟨S1x1, .f32⟩
  | 125 => ⟨S1024x1, .f32⟩
  | 126 => ⟨S1024x1, .f32⟩
  | 127 => ⟨S1024x1, .f32⟩
  | _ => ⟨S100000x128, .f32⟩

abbrev hbmTy0_1 (i : Nat) : BufTy := match i % 128 with
  | 0 => ⟨S1024x1, .f32⟩
  | 1 => ⟨S1024x1, .f32⟩
  | 2 => ⟨S_, .f32⟩
  | 3 => ⟨S1024x1, .f32⟩
  | 4 => ⟨S1024x1, .f32⟩
  | 5 => ⟨S_, .f32⟩
  | 6 => ⟨S1024x1, .f32⟩
  | 7 => ⟨S1024x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_v14 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call2_v0 : Ref sig .tc := ⟨.hbm, 86, rfl⟩
abbrev main_call2_cst : Ref sig .tc := ⟨.hbm, 87, rfl⟩
abbrev main_call2_v1 : Ref sig .tc := ⟨.hbm, 88, rfl⟩
abbrev main_v59 : Ref sig .tc := ⟨.hbm, 89, rfl⟩
abbrev main_call3_v0 : Ref sig .tc := ⟨.hbm, 90, rfl⟩
abbrev main_call3_cst : Ref sig .tc := ⟨.hbm, 91, rfl⟩
abbrev main_call3_v1 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_13 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_14 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_16 : Ref sig .tc := ⟨.hbm, 130, rfl⟩
abbrev main_v93 : Ref sig .tc := ⟨.hbm, 131, rfl⟩
abbrev main_v94 : Ref sig .tc := ⟨.hbm, 132, rfl⟩
abbrev main_cst_17 : Ref sig .tc := ⟨.hbm, 133, rfl⟩
abbrev main_v95 : Ref sig .tc := ⟨.hbm, 134, rfl⟩
abbrev main_v96 : Ref sig .tc := ⟨.hbm, 135, rfl⟩

abbrev nD : Nat := 1
abbrev τ : Topo := Topo.v7x

variable {F : FTy → Type} [FloatOps F]

class Facts₀ : Prop where
  bcast_S_S1024x32 : S_.BroadcastsInDim S1024x32 (![] : Fin 0 → Fin S1024x32.rank)
  bcast_S1024x32_S1024x32x1_0_1 : S1024x32.BroadcastsInDim S1024x32x1 (![0, 1] : Fin 2 → Fin S1024x32x1.rank)
  bcast_S_S1024x256 : S_.BroadcastsInDim S1024x256 (![] : Fin 0 → Fin S1024x256.rank)
  bcast_S1024x256_S1024x256x1_0_1 : S1024x256.BroadcastsInDim S1024x256x1 (![0, 1] : Fin 2 → Fin S1024x256x1.rank)
  reducesTo_S1024x32x128_S1024x32_d2 : S1024x32x128.ReducesTo [2] S1024x32
  h_S_ : 0 < S_.numel
  reducesTo_S1024x256x128_S1024x256_d2 : S1024x256x128.ReducesTo [2] S1024x256
  bcast_S1024x256_S1024x1x256_0_2 : S1024x256.BroadcastsInDim S1024x1x256 (![0, 2] : Fin 2 → Fin S1024x1x256.rank)
  bcast_S1024x32x1_S1024x32x256_0_1_2 : S1024x32x1.BroadcastsInDim S1024x32x256 (![0, 1, 2] : Fin 3 → Fin S1024x32x256.rank)
  bcast_S1024x1x256_S1024x32x256_0_1_2 : S1024x1x256.BroadcastsInDim S1024x32x256 (![0, 1, 2] : Fin 3 → Fin S1024x32x256.rank)
  bcast_S_S1024x32x256 : S_.BroadcastsInDim S1024x32x256 (![] : Fin 0 → Fin S1024x32x256.rank)
  bcast_S1024x32x256_S1024x32x256x1_0_1_2 : S1024x32x256.BroadcastsInDim S1024x32x256x1 (![0, 1, 2] : Fin 3 → Fin S1024x32x256x1.rank)
  bcast_S11_S1x1x1x11_3 : S11.BroadcastsInDim S1x1x1x11 (![3] : Fin 1 → Fin S1x1x1x11.rank)
  bcast_S1024x32x256x1_S1024x32x256x11_0_1_2_3 : S1024x32x256x1.BroadcastsInDim S1024x32x256x11 (![0, 1, 2, 3] : Fin 4 → Fin S1024x32x256x11.rank)
  bcast_S1x1x1x11_S1024x32x256x11_0_1_2_3 : S1x1x1x11.BroadcastsInDim S1024x32x256x11 (![0, 1, 2, 3] : Fin 4 → Fin S1024x32x256x11.rank)
  bcast_S_S1024x32x256x11 : S_.BroadcastsInDim S1024x32x256x11 (![] : Fin 0 → Fin S1024x32x256x11.rank)
  reducesTo_S1024x32x256x11_S1024x32x11_d2 : S1024x32x256x11.ReducesTo [2] S1024x32x11
  reducesTo_S1024x32x11_S1024x11_d1 : S1024x32x11.ReducesTo [1] S1024x11
  transposes_S1x11_S11x1_1_0 : S1x11.Transposes [1, 0] S11x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  gather_S100000x128_S1024x32x1_S1024x32x128_2_0_n_n_0_2_1128_wf : GatherDims.WF S100000x128 S1024x32x1 S1024x32x128 [2] [0] [] [0] [] 2 ![1, 128]
  gather_S100000x128_S1024x256x1_S1024x256x128_2_0_n_n_0_2_1128_wf : GatherDims.WF S100000x128 S1024x256x1 S1024x256x128 [2] [0] [] [0] [] 2 ![1, 128]
  dot_S1024x32x128_S1024x256x128_S1024x32x256_2_2_1_1_0_0_wf : DotDims.WF S1024x32x128 S1024x256x128 S1024x32x256 [2] [2] [1] [1] [0] [0]
  dot_S1024x11_S11x1_S1024x1_1_0_0_1_n_n_wf : DotDims.WF S1024x11 S11x1 S1024x1 [1] [0] [0] [1] [] []

variable [Facts₀]

def gather_S100000x128_S1024x32x1_S1024x32x128_2_0_n_n_0_2_1128 : GatherDims S100000x128 S1024x32x1 S1024x32x128 where
  offsetDims := [2]
  collapsedSliceDims := [0]
  operandBatchingDims := []
  startIndicesBatchingDims := []
  startIndexMap := [0]
  indexVectorDim := 2
  sliceSizes := ![1, 128]
  wf := gather_S100000x128_S1024x32x1_S1024x32x128_2_0_n_n_0_2_1128_wf
def gather_S100000x128_S1024x256x1_S1024x256x128_2_0_n_n_0_2_1128 : GatherDims S100000x128 S1024x256x1 S1024x256x128 where
  offsetDims := [2]
  collapsedSliceDims := [0]
  operandBatchingDims := []
  startIndicesBatchingDims := []
  startIndexMap := [0]
  indexVectorDim := 2
  sliceSizes := ![1, 128]
  wf := gather_S100000x128_S1024x256x1_S1024x256x128_2_0_n_n_0_2_1128_wf
def dot_S1024x32x128_S1024x256x128_S1024x32x256_2_2_1_1_0_0 : DotDims S1024x32x128 S1024x256x128 S1024x32x256 where
  lhsContracting := [2]
  rhsContracting := [2]
  lhsNonContracting := [1]
  rhsNonContracting := [1]
  lhsBatch := [0]
  rhsBatch := [0]
  wf := dot_S1024x32x128_S1024x256x128_S1024x32x256_2_2_1_1_0_0_wf
def dot_S1024x11_S11x1_S1024x1_1_0_0_1_n_n : DotDims S1024x11 S11x1 S1024x1 where
  lhsContracting := [1]
  rhsContracting := [0]
  lhsNonContracting := [0]
  rhsNonContracting := [1]
  lhsBatch := []
  rhsBatch := []
  wf := dot_S1024x11_S11x1_S1024x1_1_0_0_1_n_n_wf

class Facts : Prop extends Facts₀ where

variable [Facts]
-- ==== Proof.Spec.lean ====
/-
  The score both programs compute, written once on the extended reals, row by row.

  A batch row holds 32 query vectors and 256 document vectors of 128 entries each.  Every (query, document) pair gets a
  cosine similarity, the dot product over the larger of the product of the two Euclidean norms and a small floor.  Eleven
  Gaussian bumps, ten of width 0.1 centred at -0.9, -0.7, ..., 0.9 and one of width 0.001 centred at 1, are laid over the
  similarities: for each bump the responses are summed over the documents, passed through log (1 + .), and summed over the
  queries.  The eleven pooled numbers are combined linearly (eleven weights and a bias) into a logit; the score of a row is
  the logistic function of the difference of the logits of two (query, document) sets sharing weights and bias.
-/
import Idealize.ShloMosaic.PureOps.Ideal
import Idealize.ShloMosaic.PureOps.Ideal.Laws
import Idealize.ShloMosaic.Lib.ValueIdx

noncomputable section

namespace Knrm

open Idealize.ShloMosaic Idealize.ShloMosaic.ValueIdx

/-- The eleven bump centres, as the binary32 words both programs carry: -0.9, -0.7, ..., 0.9, 1. -/
def centre : Fin 11 → BitVec 32 :=
  ![0xBF666666#32, 0xBF333333#32, 0xBF000000#32, 0xBE99999A#32, 0xBDCCCCCD#32, 0x3DCCCCCD#32, 0x3E99999A#32, 0x3F000000#32,
    0x3F333333#32, 0x3F666666#32, 0x3F800000#32]

/-- The eleven bump widths as binary32 words: ten times 0.1, then 0.001 for the bump at 1. -/
def width : Fin 11 → BitVec 32 :=
  ![0x3DCCCCCD#32, 0x3DCCCCCD#32, 0x3DCCCCCD#32, 0x3DCCCCCD#32, 0x3DCCCCCD#32, 0x3DCCCCCD#32, 0x3DCCCCCD#32, 0x3DCCCCCD#32,
    0x3DCCCCCD#32, 0x3DCCCCCD#32, 0x3A83126F#32]

/-- Cosine similarity of two vectors with the floored denominator: q·d / max (|q| |d|) floor. -/
def cosSim (q d : Fin 128 → EReal) : EReal :=
  Ideal.div (∑ e, q e * d e)
    (max (Ideal.sqrt (∑ e, q e * q e) * Ideal.sqrt (∑ e, d e * d e)) (Ideal.ofBits .f32 0x322BCC77#32))

/-- Bump `k` at a similarity `s`: exp (-1/2 · z · z) with z = (s - centre k) / width k, multiplied in that order. -/
def bump (k : Fin 11) (s : EReal) : EReal :=
  Ideal.exp (Ideal.ofBits .f32 0xBF000000#32 * Ideal.div (s - Ideal.ofBits .f32 (centre k)) (Ideal.ofBits .f32 (width k))
    * Ideal.div (s - Ideal.ofBits .f32 (centre k)) (Ideal.ofBits .f32 (width k)))

/-- Bump `k` pooled over a 32 × 256 table of similarities: summed over documents, log (1 + .), summed over queries. -/
def pooled (k : Fin 11) (sim : Fin 32 → Fin 256 → EReal) : EReal :=
  ∑ i, Ideal.log1p (∑ j, bump k (sim i j))

/-- The logit of a table of similarities: the pooled bumps against the weights, plus the bias. -/
def logit (sim : Fin 32 → Fin 256 → EReal) (w : Fin 11 → EReal) (b : EReal) : EReal :=
  (∑ k, pooled k sim * w k) + b

/-- The score of batch row `r`, from the two sets of query and document vectors (arrays with `n` batch rows), the weights
    (a 1 × 11 array) and the bias (a 1-array). -/
def outAt {n : Nat} (qe1 : (⟨3, ![n, 32, 128]⟩ : Shape).Idx → EReal) (de1 : (⟨3, ![n, 256, 128]⟩ : Shape).Idx → EReal)
    (qe2 : (⟨3, ![n, 32, 128]⟩ : Shape).Idx → EReal) (de2 : (⟨3, ![n, 256, 128]⟩ : Shape).Idx → EReal)
    (w : (⟨2, ![1, 11]⟩ : Shape).Idx → EReal) (b : (⟨1, ![1]⟩ : Shape).Idx → EReal) (r : Fin n) : EReal :=
  Ideal.logistic
    (logit (fun i j => cosSim (fun e => qe1 (ix3 r i e)) (fun e => de1 (ix3 r j e))) (fun k => w (ix2 0 k)) (b (ix1 0))
      - logit (fun i j => cosSim (fun e => qe2 (ix3 r i e)) (fun e => de2 (ix3 r j e))) (fun k => w (ix2 0 k)) (b (ix1 0)))

end Knrm

end
-- ==== Proof.KernelBody.lean ====
/-
  The kernel body's stored value read at an index: entry (y, 0) of the 64 × 1 block the body leaves is the specification's row
  score of row y of the four input blocks, the weights and the bias.
-/
import proofs.«407696_j63891933495509_2_alg».proof.Proof.Gen.KernelIdeal.Frame
import proofs.«407696_j63891933495509_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- A sum over the last axis of a rank-3 block, read at (y, q): the sum over the last coordinate. -/
theorem red3_last {a b c : Nat} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (y : Fin a) (q : Fin b) :
    multiReduction .add [2] ⟨2, ![a, b]⟩ src 0x00000000#32 h hφ hacc (ix2 y q) = ∑ d : Fin c, src (ix3 y q d) := by
  refine (Ideal.multiReduction_add_single src 0x00000000#32 h hφ hacc (ix2 y q)).trans ?_
  refine Finset.sum_congr rfl fun d _ => congrArg src (funext fun ax => Fin.ext ?_)
  match ax with
  | ⟨0, _⟩ => rfl
  | ⟨1, _⟩ => rfl
  | ⟨2, _⟩ => rfl

/-- A sum over the last axis of a rank-2 block, read at y: the sum over the last coordinate. -/
theorem red2_last {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (y : Fin a) :
    multiReduction .add [1] ⟨1, ![a]⟩ src 0x00000000#32 h hφ hacc (ix1 y) = ∑ q : Fin b, src (ix2 y q) := by
  refine (Ideal.multiReduction_add_single src 0x00000000#32 h hφ hacc (ix1 y)).trans ?_
  refine Finset.sum_congr rfl fun q _ => congrArg src (funext fun ax => Fin.ext ?_)
  match ax with
  | ⟨0, _⟩ => rfl
  | ⟨1, _⟩ => rfl

/-! ## One bump, pooled -/

/-- The responses of the bump with centre word c and width word s, summed over the documents: one entry per (row, query). -/
def binInner (sim : FVec Ideal S64x32x256 .f32) (c s : BitVec 32) : FVec Ideal S64x32 .f32 :=
  multiReduction .add [2] S64x32
    (exp (mulf (mulf (broadcast S64x32x256 (Scalar.ofBits .f32 0xBF000000#32))
        (divf (subf sim (broadcast S64x32x256 (Scalar.ofBits .f32 c))) (broadcast S64x32x256 (Scalar.ofBits .f32 s))))
      (divf (subf sim (broadcast S64x32x256 (Scalar.ofBits .f32 c))) (broadcast S64x32x256 (Scalar.ofBits .f32 s)))))
    0x00000000#32 reduces_S64x32x256_S64x32 (.inl rfl) rfl

/-- The sum over the queries of a table of (row, query) entries. -/
def overQueries (t : FVec Ideal S64x32 .f32) : FVec Ideal S64 .f32 :=
  multiReduction .add [1] S64 t 0x00000000#32 reduces_S64x32_S64 (.inl rfl) rfl

/-- The bump pooled: log (1 + .) of the document sums, summed over the queries: one entry per row. -/
def binOf (sim : FVec Ideal S64x32x256 .f32) (c s : BitVec 32) : FVec Ideal S64 .f32 :=
  overQueries (log1p (binInner sim c s))

theorem binInner_apply (sim : FVec Ideal S64x32x256 .f32) (k : Fin 11) (y : Fin 64) (q : Fin 32) :
    binInner sim (Knrm.centre k) (Knrm.width k) (ix2 y q) = ∑ d : Fin 256, Knrm.bump k (sim (ix3 y q d)) :=
  red3_last _ _ _ _ y q

theorem overQueries_apply (t : FVec Ideal S64x32 .f32) (y : Fin 64) :
    overQueries t (ix1 y) = ∑ q : Fin 32, t (ix2 y q) :=
  red2_last _ _ _ _ y

/-- Row y of the pooled bump k is the specification's pooled bump of row y's table of similarities. -/
theorem binOf_apply (sim : FVec Ideal S64x32x256 .f32) (k : Fin 11) (y : Fin 64) :
    binOf sim (Knrm.centre k) (Knrm.width k) (ix1 y) = Knrm.pooled k (fun q d => sim (ix3 y q d)) := by
  refine (overQueries_apply _ y).trans ?_
  exact Finset.sum_congr rfl fun q _ => congrArg Ideal.log1p (binInner_apply sim k y q)

/-! ## The weights, the bias, and the eleven-term sum -/

/-- The weight the body multiplies bump k by: the 1 × 1 window of the weight row at column k, read at its one entry. -/
theorem weight_apply (v0 : FVec Ideal S1x11 .f32) (k : Fin 11) (h : S1x11.Slices ![0, k.val] S1x1)
    (hp : ∀ a, (![0, 0] : Fin 2 → Nat) a < S1x1.size a) :
    extractAt ![0, 0] (extractStridedSlice S1x1 ![0, k.val] v0 h) hp = v0 (ix2 0 k) := by
  unfold extractAt
  refine extractStridedSlice_apply _ v0 h _ (ix2 0 k) fun a => ?_
  match a with
  | ⟨0, _⟩ => rfl
  | ⟨1, _⟩ => rfl

/-- The bias the body starts from: the one entry of the bias vector. -/
theorem bias_apply (v1 : FVec Ideal S1 .f32) (hp : ∀ a, (![0] : Fin 1 → Nat) a < S1.size a) :
    extractAt ![0] v1 hp = v1 (ix1 0) :=
  congrArg v1 (funext fun a => Fin.ext (by match a with | ⟨0, _⟩ => rfl))

/-- Eleven terms added one after the other onto b are their sum plus b (addition on the extended reals is commutative
    and associative). -/
theorem sum11 (a : Fin 11 → EReal) (b : EReal) :
    b + a 0 + a 1 + a 2 + a 3 + a 4 + a 5 + a 6 + a 7 + a 8 + a 9 + a 10 = (∑ k, a k) + b := by
  have e : ∑ k, a k = a 0 + a 1 + a 2 + a 3 + a 4 + a 5 + a 6 + a 7 + a 8 + a 9 + a 10 := by
    simp only [Fin.sum_univ_succ, Fin.sum_univ_zero, add_zero, ← add_assoc]
    rfl
  rw [e]
  abel

/-! ## The logit of a block of similarities, as the body nests it -/

/-- Bump k pooled, times its weight spread over the rows. -/
def termV (sim : FVec Ideal S64x32x256 .f32) (v0 : FVec Ideal S1x11 .f32) (k : Fin 11)
    (h : S1x11.Slices ![0, k.val] S1x1) : FVec Ideal S64 .f32 :=
  mulf (binOf sim (Knrm.centre k) (Knrm.width k))
    (broadcast S64 (extractAt ![0, 0] (extractStridedSlice S1x1 ![0, k.val] v0 h) inpos_S1x1_p0_0))

theorem termV_apply (sim : FVec Ideal S64x32x256 .f32) (v0 : FVec Ideal S1x11 .f32) (k : Fin 11)
    (h : S1x11.Slices ![0, k.val] S1x1) (y : Fin 64) :
    termV sim v0 k h (ix1 y) = Knrm.pooled k (fun q d => sim (ix3 y q d)) * v0 (ix2 0 k) := by
  show binOf sim (Knrm.centre k) (Knrm.width k) (ix1 y)
      * extractAt ![0, 0] (extractStridedSlice S1x1 ![0, k.val] v0 h) inpos_S1x1_p0_0 = _
  rw [binOf_apply, weight_apply]

/-- The bias spread over the rows, then the eleven weighted pooled bumps added one after the other. -/
def logitV (sim : FVec Ideal S64x32x256 .f32) (v0 : FVec Ideal S1x11 .f32) (v1 : FVec Ideal S1 .f32) : FVec Ideal S64 .f32 :=
  addf (addf (addf (addf (addf (addf (addf (addf (addf (addf (addf (broadcast S64 (extractAt ![0] v1 inpos_S1_p0))
    (termV sim v0 0 slices_S1x11_o0_0_S1x1)) (termV sim v0 1 slices_S1x11_o0_1_S1x1)) (termV sim v0 2 slices_S1x11_o0_2_S1x1))
    (termV sim v0 3 slices_S1x11_o0_3_S1x1)) (termV sim v0 4 slices_S1x11_o0_4_S1x1)) (termV sim v0 5 slices_S1x11_o0_5_S1x1))
    (termV sim v0 6 slices_S1x11_o0_6_S1x1)) (termV sim v0 7 slices_S1x11_o0_7_S1x1)) (termV sim v0 8 slices_S1x11_o0_8_S1x1))
    (termV sim v0 9 slices_S1x11_o0_9_S1x1)) (termV sim v0 10 slices_S1x11_o0_10_S1x1)

/-- Row y of it is the specification's logit of row y's table of similarities. -/
theorem logitV_apply (sim : FVec Ideal S64x32x256 .f32) (v0 : FVec Ideal S1x11 .f32) (v1 : FVec Ideal S1 .f32) (y : Fin 64) :
    logitV sim v0 v1 (ix1 y) = Knrm.logit (fun q d => sim (ix3 y q d)) (fun k => v0 (ix2 0 k)) (v1 (ix1 0)) := by
  unfold logitV Knrm.logit
  simp only [addf_apply, termV_apply, broadcast_apply, bias_apply]
  exact sum11 (fun k => Knrm.pooled k (fun q d => sim (ix3 y q d)) * v0 (ix2 0 k)) (v1 (ix1 0))

/-! ## The block of similarities -/

/-- The batched product's left operand index at result index j and contraction index k, axis by axis: the row, the
    query, the contracted coordinate. -/
theorem dot_lhs_0 (j : S64x32x256.Idx) (k : dot_S64x32x128_S64x256x128_S64x32x256_2_2_1_1_0_0.contr.Idx) :
    (dot_S64x32x128_S64x256x128_S64x32x256_2_2_1_1_0_0.lhsIdx j k 0).val = (j 0).val := rfl
theorem dot_lhs_1 (j : S64x32x256.Idx) (k : dot_S64x32x128_S64x256x128_S64x32x256_2_2_1_1_0_0.contr.Idx) :
    (dot_S64x32x128_S64x256x128_S64x32x256_2_2_1_1_0_0.lhsIdx j k 1).val = (j 1).val := rfl
theorem dot_lhs_2 (j : S64x32x256.Idx) (k : dot_S64x32x128_S64x256x128_S64x32x256_2_2_1_1_0_0.contr.Idx) :
    (dot_S64x32x128_S64x256x128_S64x32x256_2_2_1_1_0_0.lhsIdx j k 2).val = (k ⟨0, Nat.one_pos⟩).val :=
  dot_S64x32x128_S64x256x128_S64x32x256_2_2_1_1_0_0.lhsIdx_val_of_single rfl j k
/-- The right operand index: the row, the document, the contracted coordinate. -/
theorem dot_rhs_0 (j : S64x32x256.Idx) (k : dot_S64x32x128_S64x256x128_S64x32x256_2_2_1_1_0_0.contr.Idx) :
    (dot_S64x32x128_S64x256x128_S64x32x256_2_2_1_1_0_0.rhsIdx j k 0).val = (j 0).val := rfl
theorem dot_rhs_1 (j : S64x32x256.Idx) (k : dot_S64x32x128_S64x256x128_S64x32x256_2_2_1_1_0_0.contr.Idx) :
    (dot_S64x32x128_S64x256x128_S64x32x256_2_2_1_1_0_0.rhsIdx j k 1).val = (j 2).val := rfl
theorem dot_rhs_2 (j : S64x32x256.Idx) (k : dot_S64x32x128_S64x256x128_S64x32x256_2_2_1_1_0_0.contr.Idx) :
    (dot_S64x32x128_S64x256x128_S64x32x256_2_2_1_1_0_0.rhsIdx j k 2).val = (k ⟨0, Nat.one_pos⟩).val :=
  dot_S64x32x128_S64x256x128_S64x32x256_2_2_1_1_0_0.rhsIdx_val_of_single rfl j k

/-- The batched product into a zero accumulator, read at (y, q, d): the dot product of query q and document d of row y. -/
theorem dot_apply (a : FVec Ideal S64x32x128 .f32) (b : FVec Ideal S64x256x128 .f32) (y : Fin 64) (q : Fin 32) (d : Fin 256) :
    matmul dot_S64x32x128_S64x256x128_S64x32x256_2_2_1_1_0_0 (some .fp32) a b
        (constant (F := Ideal) S64x32x256 .f32 0x00000000#32) (ix3 y q d)
      = ∑ e : Fin 128, a (ix3 y q e) * b (ix3 y d e) := by
  refine (Ideal.matmul_constant_zero_apply dot_S64x32x128_S64x256x128_S64x32x256_2_2_1_1_0_0 (some .fp32) a b (ix3 y q d)).trans ?_
  refine (Equiv.sum_comp (contrEquiv1 dot_S64x32x128_S64x256x128_S64x32x256_2_2_1_1_0_0 128 rfl rfl).symm _).symm.trans ?_
  refine Finset.sum_congr rfl fun e _ => ?_
  refine congrArg₂ (· * ·) (congrArg a (funext fun ax => Fin.ext ?_)) (congrArg b (funext fun ax => Fin.ext ?_))
  · match ax with
    | ⟨0, _⟩ => exact dot_lhs_0 _ _
    | ⟨1, _⟩ => exact dot_lhs_1 _ _
    | ⟨2, _⟩ => exact (dot_lhs_2 _ _).trans (contrEquiv1_symm_val dot_S64x32x128_S64x256x128_S64x32x256_2_2_1_1_0_0 128 rfl rfl e)
  · match ax with
    | ⟨0, _⟩ => exact dot_rhs_0 _ _
    | ⟨1, _⟩ => exact dot_rhs_1 _ _
    | ⟨2, _⟩ => exact (dot_rhs_2 _ _).trans (contrEquiv1_symm_val dot_S64x32x128_S64x256x128_S64x32x256_2_2_1_1_0_0 128 rfl rfl e)

/-- A (row, query) table viewed 64 × 32 × 1 and spread along the documents reads, at (y, q, d), its entry (y, q). -/
theorem spreadQ_apply (t : FVec Ideal S64x32 .f32) (h1 : S64x32.ShapeCasts S64x32x1) (h2 : S64x32x1.Broadcasts S64x32x256)
    (y : Fin 64) (q : Fin 32) (d : Fin 256) :
    broadcastTo S64x32x256 (shapeCast S64x32x1 t h1) h2 (ix3 y q d) = t (ix2 y q) := by
  refine (broadcastTo_apply _ h2 (ix3 y q d) (ix3 y q (0 : Fin 1)) fun ax => ?_).trans ?_
  · match ax with
    | ⟨0, _⟩ => rfl
    | ⟨1, _⟩ => rfl
    | ⟨2, _⟩ => rfl
  · refine shapeCast_apply t h1 (ix3 y q (0 : Fin 1)) (ix2 y q) ?_
    rw [Shape.rowMajor_val_three, Shape.rowMajor_val_two]
    show y.val * 32 + q.val = (y.val * 32 + q.val) * 1 + 0
    omega

/-- A (row, document) table viewed 64 × 1 × 256 and spread along the queries reads, at (y, q, d), its entry (y, d). -/
theorem spreadD_apply (t : FVec Ideal S64x256 .f32) (h1 : S64x256.ShapeCasts S64x1x256) (h2 : S64x1x256.Broadcasts S64x32x256)
    (y : Fin 64) (q : Fin 32) (d : Fin 256) :
    broadcastTo S64x32x256 (shapeCast S64x1x256 t h1) h2 (ix3 y q d) = t (ix2 y d) := by
  refine (broadcastTo_apply _ h2 (ix3 y q d) (ix3 y (0 : Fin 1) d) fun ax => ?_).trans ?_
  · match ax with
    | ⟨0, _⟩ => rfl
    | ⟨1, _⟩ => rfl
    | ⟨2, _⟩ => rfl
  · refine shapeCast_apply t h1 (ix3 y (0 : Fin 1) d) (ix2 y d) ?_
    rw [Shape.rowMajor_val_three, Shape.rowMajor_val_two]
    show y.val * 256 + d.val = (y.val * 1 + 0) * 256 + d.val
    omega

/-- The similarity block of a block of query vectors and a block of document vectors: the batched product over the
    larger of the product of the two tables of Euclidean norms and the floor. -/
def simOf (a : FVec Ideal S64x32x128 .f32) (b : FVec Ideal S64x256x128 .f32) : FVec Ideal S64x32x256 .f32 :=
  divf (matmul dot_S64x32x128_S64x256x128_S64x32x256_2_2_1_1_0_0 (some .fp32) a b (constant S64x32x256 .f32 0x00000000#32))
    (maximumf
      (mulf
        (broadcastTo S64x32x256 (shapeCast S64x32x1
          (sqrt (multiReduction .add [2] S64x32 (mulf a a) 0x00000000#32 reduces_S64x32x128_S64x32 (.inl rfl) rfl))
          shapeCasts_S64x32_S64x32x1) broadcasts_S64x32x1_S64x32x256)
        (broadcastTo S64x32x256 (shapeCast S64x1x256
          (sqrt (multiReduction .add [2] S64x256 (mulf b b) 0x00000000#32 reduces_S64x256x128_S64x256 (.inl rfl) rfl))
          shapeCasts_S64x256_S64x1x256) broadcasts_S64x1x256_S64x32x256))
      (broadcast S64x32x256 (Scalar.ofBits .f32 0x322BCC77#32)))

/-- Entry (y, q, d) of the similarity block is the cosine similarity of query q and document d of row y. -/
theorem simOf_apply (a : FVec Ideal S64x32x128 .f32) (b : FVec Ideal S64x256x128 .f32) (y : Fin 64) (q : Fin 32) (d : Fin 256) :
    simOf a b (ix3 y q d) = Knrm.cosSim (fun e => a (ix3 y q e)) (fun e => b (ix3 y d e)) := by
  unfold simOf Knrm.cosSim
  refine congrArg₂ Ideal.div (dot_apply a b y q d) (congrArg₂ max (congrArg₂ (· * ·) ?_ ?_) rfl)
  · refine (spreadQ_apply _ _ _ y q d).trans (congrArg Ideal.sqrt ?_)
    exact red3_last (mulf a a) _ _ _ y q
  · refine (spreadD_apply _ _ _ y q d).trans (congrArg Ideal.sqrt ?_)
    exact red3_last (mulf b b) _ _ _ y d

/-- The first payload is that block of the two loaded blocks (its two shape casts change nothing). -/
theorem pay2_eq (v2 : FVec Ideal S64x32x128 .f32) (v4 : FVec Ideal S64x256x128 .f32) : k0_pay2 v2 v4 = simOf v2 v4 := by
  have e : k0_pay2 v2 v4 = simOf (shapeCast S64x32x128 v2 shapeCasts_S64x32x128_S64x32x128)
      (shapeCast S64x256x128 v4 shapeCasts_S64x256x128_S64x256x128) := rfl
  rw [e, shapeCast_self, shapeCast_self]

/-- The second predict's similarity payload is the same function of its two blocks. -/
theorem pay13_eq (v2 : FVec Ideal S64x32x128 .f32) (v4 : FVec Ideal S64x256x128 .f32) : k0_pay13 v2 v4 = simOf v2 v4 := by
  have e : k0_pay13 v2 v4 = simOf (shapeCast S64x32x128 v2 shapeCasts_S64x32x128_S64x32x128)
      (shapeCast S64x256x128 v4 shapeCasts_S64x256x128_S64x256x128) := rfl
  rw [e, shapeCast_self, shapeCast_self]

/-! ## The nest of payloads -/

/-- The first predict's nest of payloads is the logit block of its similarity block. -/
theorem first_eq (v0 : FVec Ideal S1x11 .f32) (v1 : FVec Ideal S1 .f32) (v2 : FVec Ideal S64x32x128 .f32)
    (v4 : FVec Ideal S64x256x128 .f32) :
    k0_pay12 v0 (k0_pay2 v2 v4)
        (k0_pay10 v0 (k0_pay2 v2 v4)
          (k0_pay7 v0 (k0_pay2 v2 v4)
            (k0_pay5 v0 (k0_pay2 v2 v4) (k0_pay3 v0 v1 v2 v4) (k0_pay4 (F := Ideal)))
            (k0_pay6 v0 (k0_pay2 v2 v4)))
          (k0_pay8 (k0_pay2 v2 v4)) (k0_pay9 v0))
        (k0_pay11 (k0_pay2 v2 v4))
      = logitV (k0_pay2 v2 v4) v0 v1 := rfl

/-- The second predict's nest of payloads ends in the logistic function of the difference of the two logit blocks. -/
theorem second_eq (v0 : FVec Ideal S1x11 .f32) (v1 : FVec Ideal S1 .f32) (sim : FVec Ideal S64x32x256 .f32)
    (v198 : FVec Ideal S64 .f32) :
    k0_pay22 v0 v198 sim
        (k0_pay20 v0 sim
          (k0_pay18 v0 sim (k0_pay15 v0 sim (k0_pay14 v1) (Scalar.ofBits .f32 0xBF666666#32)) (k0_pay16 sim) (k0_pay17 v0))
          (k0_pay19 sim))
        (k0_pay21 sim)
      = logistic (subf v198 (logitV sim v0 v1)) := rfl

/-- What the body stores, at row `i 0` of the block, is the specification's row score of the blocks it loaded. -/
theorem out0_6_apply (x0 : Vec Ideal S64x32x128 .f32) (x1 : Vec Ideal S64x256x128 .f32) (x2 : Vec Ideal S64x32x128 .f32)
    (x3 : Vec Ideal S64x256x128 .f32) (x4 : Vec Ideal S1x11 .f32) (x5 : Vec Ideal S1 .f32) (i : S64x1.Idx) :
    out0_6 x0 x1 x2 x3 x4 x5 i = Knrm.outAt x0 x1 x2 x3 x4 x5 (i 0) := by
  obtain ⟨y, z, rfl⟩ : ∃ (y : Fin 64) (z : Fin 1), i = ix2 y z := ⟨i 0, i 1, eq_ix2 i⟩
  have hz1 : (![0] : Fin 1 → Nat) = fun _ => 0 := funext fun a => by
    match a with
    | ⟨0, _⟩ => rfl
  have hz2 : (![0, 0] : Fin 2 → Nat) = fun _ => 0 := funext fun a => by
    match a with
    | ⟨0, _⟩ => rfl
    | ⟨1, _⟩ => rfl
  have hz3 : (![0, 0, 0] : Fin 3 → Nat) = fun _ => 0 := funext fun a => by
    match a with
    | ⟨0, _⟩ => rfl
    | ⟨1, _⟩ => rfl
    | ⟨2, _⟩ => rfl
  unfold out0_6
  rw [View.canon_unit_zero hz2]
  simp only [View.ld_unit_zero (S := S1x11) hz2, View.ld_unit_zero (S := S1) hz1,
    View.ld_unit_zero (S := S64x32x128) hz3, View.ld_unit_zero (S := S64x256x128) hz3]
  rw [first_eq, second_eq, pay2_eq, pay13_eq]
  unfold k0_pay1
  refine (shapeCast_apply _ _ (ix2 y z) (ix1 y) ?_).trans ?_
  · rw [Shape.rowMajor_val_one, Shape.rowMajor_val_two]
    show y.val = y.val * 1 + z.val
    omega
  show Ideal.logistic (logitV (simOf x0 x1) x4 x5 (ix1 y) - logitV (simOf x2 x3) x4 x5 (ix1 y)) = _
  rw [logitV_apply, logitV_apply]
  simp only [simOf_apply]
  rfl

end Cert.KernelIdeal.Body

end
-- ==== Proof.KernelTerm.lean ====
/-
  The kernel program's row lookups as terms: a negative index counted from the table's end, then the row gather.  Where
  every index names a row, this is what its guarded lookup returns.
-/
import proofs.«407696_j63891933495509_2_alg».proof.Proof.Gen.KernelIdeal

noncomputable section

namespace Cert.KernelIdeal.Krn

open Cert.KernelIdeal Cert.KernelIdeal.Facts₀ Cert.KernelIdeal.Facts Idealize.ShloMosaic

variable {F : FTy → Type} [FloatOps F]

/-- Rows of the table looked up by a 1024 × 32 array of indices, a negative index counted from the table's end first. -/
def rows32 (emb : FVec F S100000x128 .f32) (q : IVec S1024x32 32) : FVec F S1024x32x128 .f32 :=
  Host.gather gather_S100000x128_S1024x32x1_S1024x32x128_2_0_n_n_0_2_1128 emb
    (broadcastInDim S1024x32x1 ![0, 1] bcast_S1024x32_S1024x32x1_0_1
      (select (cmpi .slt q (broadcastInDim S1024x32 ![] bcast_S_S1024x32 (constantI S_ 32 0#32)))
        (addi q (broadcastInDim S1024x32 ![] bcast_S_S1024x32 (constantI S_ 32 100000#32))) q))

/-- The same for a 1024 × 256 array of indices. -/
def rows256 (emb : FVec F S100000x128 .f32) (d : IVec S1024x256 32) : FVec F S1024x256x128 .f32 :=
  Host.gather gather_S100000x128_S1024x256x1_S1024x256x128_2_0_n_n_0_2_1128 emb
    (broadcastInDim S1024x256x1 ![0, 1] bcast_S1024x256_S1024x256x1_0_1
      (select (cmpi .slt d (broadcastInDim S1024x256 ![] bcast_S_S1024x256 (constantI S_ 32 0#32)))
        (addi d (broadcastInDim S1024x256 ![] bcast_S_S1024x256 (constantI S_ 32 100000#32))) d))

end Cert.KernelIdeal.Krn

end
-- ==== Proof.KernelRows.lean ====
/-
  The four looked-up arrays the kernel's region is entered with.  The program guards each lookup: where an index (after a
  negative one is counted from the table's end) does not name a row, it substitutes a fill value.  Under the precondition
  every index is at least -100000 and below 100000, so every guard passes and each array is the plain row gather.
-/
import proofs.«407696_j63891933495509_2_alg».proof.Defs
import proofs.«407696_j63891933495509_2_alg».proof.Proof.Gen.KernelIdeal.Frame
import proofs.«407696_j63891933495509_2_alg».proof.Proof.Gen.Pre_finite_inputs
import proofs.«407696_j63891933495509_2_alg».proof.Proof.KernelTerm
import Idealize.ShloMosaic.Lib.StableHlo.Run
import Idealize.ShloMosaic.Lib.StableHlo.Predicate
import Idealize.ShloMosaic.Lib.ReduceAll
import Idealize.ShloMosaic.Lib.ValueIdx

noncomputable section

namespace Cert.KernelIdeal.Rows

open Cert.KernelIdeal Cert.KernelIdeal.Gen Idealize.ShloMosaic Idealize.ShloMosaic.TcCoe Idealize.SL.Sem

variable (m : (ℓ : Loc nD τ sig) → Buf (Elt Ideal) ℓ)

/-! ## Words -/

/-- A signed 32-bit word in [-100000, 100000), with 100000 added when it is negative, lies in [0, 99999]. -/
theorem wrap_in_range (x : BitVec 32) (hlo : IntOp.cmpi .sge x 4294867296#32 = 1#1) (hhi : IntOp.cmpi .slt x 100000#32 = 1#1) :
    IntOp.andi (IntOp.cmpi .sge (Scalar.select (IntOp.cmpi .slt x 0#32) (IntOp.addi x 100000#32) x) 0#32)
      (IntOp.cmpi .sle (Scalar.select (IntOp.cmpi .slt x 0#32) (IntOp.addi x 100000#32) x) 99999#32) = 1#1 := by
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  simp only [IntOp.cmpi, StableHlo.Predicate.ofBool_eq_one_iff, BitVec.sle, BitVec.slt, decide_eq_true_eq, e1, e2] at hlo hhi
  rw [IntOp.andi_eq_one]
  by_cases hneg : x.toInt < 0
  · have hc : IntOp.cmpi .slt x 0#32 = 1#1 := by
      simp only [IntOp.cmpi, StableHlo.Predicate.ofBool_eq_one_iff, BitVec.slt, decide_eq_true_eq, e3]; exact hneg
    have hs : (IntOp.addi x 100000#32).toInt = x.toInt + 100000 := by
      unfold IntOp.addi
      rw [BitVec.toInt_add, e2, Int.bmod_def]
      split <;> omega
    rw [hc, ValueIdx.select_one]
    simp only [IntOp.cmpi, StableHlo.Predicate.ofBool_eq_one_iff, BitVec.sle, decide_eq_true_eq, e3, e4, hs]
    omega
  · have hc : IntOp.cmpi .slt x 0#32 = 0#1 := by
      simp only [IntOp.cmpi, BitVec.slt, e3, decide_eq_false hneg]; rfl
    rw [hc, ValueIdx.select_zero]
    simp only [IntOp.cmpi, StableHlo.Predicate.ofBool_eq_one_iff, BitVec.sle, decide_eq_true_eq, e3, e4]
    omega

/-! ## A reduction by `and` of all ones -/

/-- An `and` fold from 1 over bits that are all 1 is 1. -/
theorem foldl_andi_all_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from rfl]
    exact foldl_andi_all_one f l fun n hn => h n (List.mem_cons_of_mem _ hn)

/-- A `stablehlo.reduce` by `and` from 1 of an array of ones is 1 everywhere. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_all_one x _ fun n _ => hx n

/-! ## The guarded lookup -/

/-- A select whose mask is 1 everywhere is its first operand. -/
theorem select_of_all_one {α : Type} {s : Shape} (c : IVec s 1) (a b : s.Idx → α) (h : ∀ i, c i = 1#1) : select c a b = a := by
  funext i; rw [ValueIdx.select_apply, h i, ValueIdx.select_one]

/-- The guarded lookup, at any shapes: the index array `q` (entries in [-100000, 100000)) is wrapped, laid out with a
    trailing unit axis, tested against [0, 99999], the test reduced by `and` and broadcast over the rows' entries; the
    select on that mask then returns the looked-up rows `g idx`, never the fill. -/
theorem guarded_eq {α : Type} {s s1 s2 u : Shape} {axes : List (Fin s1.rank)}
    (dims1 : Fin s.rank → Fin s1.rank) (hb1 : s.BroadcastsInDim s1 dims1)
    (dims2 : Fin s.rank → Fin s2.rank) (hb2 : s.BroadcastsInDim s2 dims2)
    (hr : s1.ReducesTo axes s) (hu : 0 < u.numel) (init : u.Idx → BitVec 1) (hinit : init (Shape.Idx.first hu) = 1#1)
    (q z k : IVec s 32) (lo hi : IVec s1 32)
    (hz : ∀ i, z i = 0#32) (hk : ∀ i, k i = 100000#32) (hlo : ∀ i, lo i = 0#32) (hhi : ∀ i, hi i = 99999#32)
    (hq : ∀ i, IntOp.cmpi .sge (q i) 4294867296#32 = 1#1 ∧ IntOp.cmpi .slt (q i) 100000#32 = 1#1)
    (g : IVec s1 32 → s2.Idx → α) (fill : s2.Idx → α) :
    select (broadcastInDim s2 dims2 hb2
        (Host.reduce IntOp.andi
          (andi (cmpi .sge (broadcastInDim s1 dims1 hb1 (select (cmpi .slt q z) (addi q k) q)) lo)
            (cmpi .sle (broadcastInDim s1 dims1 hb1 (select (cmpi .slt q z) (addi q k) q)) hi))
          init hr hu))
      (g (broadcastInDim s1 dims1 hb1 (select (cmpi .slt q z) (addi q k) q))) fill
      = g (broadcastInDim s1 dims1 hb1 (select (cmpi .slt q z) (addi q k) q)) := by
  refine select_of_all_one _ _ _ fun j => ?_
  show Host.reduce IntOp.andi _ init hr hu _ = 1#1
  refine reduce_andi_of_all_one _ init hr hu (fun i => ?_) hinit _
  show IntOp.andi (IntOp.cmpi .sge (Scalar.select (IntOp.cmpi .slt (q _) (z _)) (IntOp.addi (q _) (k _)) (q _)) (lo i))
      (IntOp.cmpi .sle (Scalar.select (IntOp.cmpi .slt (q _) (z _)) (IntOp.addi (q _) (k _)) (q _)) (hi i)) = 1#1
  rw [hz, hk, hlo, hhi]
  exact wrap_in_range _ (hq _).1 (hq _).2

/-! ## The precondition, read back -/

/-- A word is an admissible index: at least -100000 and below 100000, as signed words. -/
def InRange (x : BitVec 32) : Prop := IntOp.cmpi .sge x 4294867296#32 = 1#1 ∧ IntOp.cmpi .slt x 100000#32 = 1#1

local instance : Subsingleton (⟨0, ![]⟩ : Shape).Idx := ⟨fun a b => funext fun d => d.elim0⟩

/-- `and` of two bit arrays is 1 at an index exactly when both are. -/
theorem andi_apply_iff {s : Shape} (x y : IVec s 1) (j : s.Idx) : andi x y j = 1#1 ↔ x j = 1#1 ∧ y j = 1#1 :=
  IntOp.andi_eq_one

/-- One `all` of a comparison of an index array against a scalar: the comparison holds at every entry. -/
theorem all_cmp {s u : Shape} {axes : List (Fin s.rank)} (hb : (⟨0, ![]⟩ : Shape).BroadcastsInDim s ![])
    (hr : s.ReducesTo axes ⟨0, ![]⟩) (hu : 0 < u.numel) (p : CmpIPredicate) (a : IVec s 32) (w : BitVec 32)
    (init : u.Idx → BitVec 1) (j : (⟨0, ![]⟩ : Shape).Idx)
    (e : Host.reduce IntOp.andi (cmpi p a (broadcastInDim s ![] hb (constantI ⟨0, ![]⟩ 32 w))) init hr hu j = 1#1)
    (i : s.Idx) : IntOp.cmpi p (a i) w = 1#1 :=
  Host.reduce_andi_all _ init hr hu j e i

/-- The precondition's four range conjuncts: every entry of each index array is admissible. -/
theorem ranges_of_pre (a0 : FVec Ideal Cert.Pre_finite_inputs.S100000x128 .f32) (a1 : FVec Ideal Cert.Pre_finite_inputs.S1x11 .f32)
    (a2 : FVec Ideal Cert.Pre_finite_inputs.S1 .f32) (a3 : IVec Cert.Pre_finite_inputs.S1024x32 32)
    (a4 : IVec Cert.Pre_finite_inputs.S1024x256 32) (a5 : IVec Cert.Pre_finite_inputs.S1024x32 32)
    (a6 : IVec Cert.Pre_finite_inputs.S1024x256 32)
    (h : Cert.Pre_finite_inputs.fn (F := Ideal) a0 a1 a2 a3 a4 a5 a6 = fun _ => 1#1) :
    (∀ i, InRange (a3 i)) ∧ (∀ i, InRange (a4 i)) ∧ (∀ i, InRange (a5 i)) ∧ (∀ i, InRange (a6 i)) := by
  have h := congrFun h ValueIdx.ix0
  dsimp only [Cert.Pre_finite_inputs.fn, Cert.Pre_finite_inputs.fn_part1, Cert.Pre_finite_inputs.fn_part2] at h
  simp only [andi_apply_iff] at h
  obtain ⟨⟨⟨⟨_, h3l, h3h⟩, h4l, h4h⟩, h5l, h5h⟩, h6l, h6h⟩ := h
  exact ⟨fun i => ⟨all_cmp _ _ _ _ _ _ _ _ h3l i, all_cmp _ _ _ _ _ _ _ _ h3h i⟩,
    fun i => ⟨all_cmp _ _ _ _ _ _ _ _ h4l i, all_cmp _ _ _ _ _ _ _ _ h4h i⟩,
    fun i => ⟨all_cmp _ _ _ _ _ _ _ _ h5l i, all_cmp _ _ _ _ _ _ _ _ h5h i⟩,
    fun i => ⟨all_cmp _ _ _ _ _ _ _ _ h6l i, all_cmp _ _ _ _ _ _ _ _ h6h i⟩⟩

/-! ## The guarded lookups as terms, and what the region finds -/

/-- The guarded lookup by a 1024 × 32 array of indices, as the program computes it. -/
def guard32 (emb : FVec Ideal S100000x128 .f32) (q : IVec S1024x32 32) : FVec Ideal S1024x32x128 .f32 :=
  select
    (broadcastInDim S1024x32x128 ![0, 1] bcast_S1024x32_S1024x32x128_0_1
      (Host.reduce IntOp.andi
        (andi
          (cmpi .sge
            (broadcastInDim S1024x32x1 ![0, 1] bcast_S1024x32_S1024x32x1_0_1
              (select (cmpi .slt q (broadcastInDim S1024x32 ![] bcast_S_S1024x32 (constantI S_ 32 0#32)))
                (addi q (broadcastInDim S1024x32 ![] bcast_S_S1024x32 (constantI S_ 32 100000#32))) q))
            (broadcastInDim S1024x32x1 ![] bcast_S_S1024x32x1 (constantI S_ 32 0#32)))
          (cmpi .sle
            (broadcastInDim S1024x32x1 ![0, 1] bcast_S1024x32_S1024x32x1_0_1
              (select (cmpi .slt q (broadcastInDim S1024x32 ![] bcast_S_S1024x32 (constantI S_ 32 0#32)))
                (addi q (broadcastInDim S1024x32 ![] bcast_S_S1024x32 (constantI S_ 32 100000#32))) q))
            (broadcastInDim S1024x32x1 ![0, 1, 2] bcast_S1x1x1_S1024x32x1_0_1_2
              (broadcastInDim S1x1x1 ![2] bcast_S1_S1x1x1_2 (constantI S1 32 99999#32)))))
        (constantI S_ 1 1#1) reducesTo_S1024x32x1_S1024x32_d2 h_S_))
    (Host.gather gather_S100000x128_S1024x32x1_S1024x32x128_2_0_n_n_0_2_1128 emb
      (broadcastInDim S1024x32x1 ![0, 1] bcast_S1024x32_S1024x32x1_0_1
        (select (cmpi .slt q (broadcastInDim S1024x32 ![] bcast_S_S1024x32 (constantI S_ 32 0#32)))
          (addi q (broadcastInDim S1024x32 ![] bcast_S_S1024x32 (constantI S_ 32 100000#32))) q)))
    (broadcastInDim S1024x32x128 ![] bcast_S_S1024x32x128 (constant (F := Ideal) S_ .f32 0x7FC00000#32))

/-- The same by a 1024 × 256 array of indices. -/
def guard256 (emb : FVec Ideal S100000x128 .f32) (d : IVec S1024x256 32) : FVec Ideal S1024x256x128 .f32 :=
  select
    (broadcastInDim S1024x256x128 ![0, 1] bcast_S1024x256_S1024x256x128_0_1
      (Host.reduce IntOp.andi
        (andi
          (cmpi .sge
            (broadcastInDim S1024x256x1 ![0, 1] bcast_S1024x256_S1024x256x1_0_1
              (select (cmpi .slt d (broadcastInDim S1024x256 ![] bcast_S_S1024x256 (constantI S_ 32 0#32)))
                (addi d (broadcastInDim S1024x256 ![] bcast_S_S1024x256 (constantI S_ 32 100000#32))) d))
            (broadcastInDim S1024x256x1 ![] bcast_S_S1024x256x1 (constantI S_ 32 0#32)))
          (cmpi .sle
            (broadcastInDim S1024x256x1 ![0, 1] bcast_S1024x256_S1024x256x1_0_1
              (select (cmpi .slt d (broadcastInDim S1024x256 ![] bcast_S_S1024x256 (constantI S_ 32 0#32)))
                (addi d (broadcastInDim S1024x256 ![] bcast_S_S1024x256 (constantI S_ 32 100000#32))) d))
            (broadcastInDim S1024x256x1 ![0, 1, 2] bcast_S1x1x1_S1024x256x1_0_1_2
              (broadcastInDim S1x1x1 ![2] bcast_S1_S1x1x1_2 (constantI S1 32 99999#32)))))
        (constantI S_ 1 1#1) reducesTo_S1024x256x1_S1024x256_d2 h_S_))
    (Host.gather gather_S100000x128_S1024x256x1_S1024x256x128_2_0_n_n_0_2_1128 emb
      (broadcastInDim S1024x256x1 ![0, 1] bcast_S1024x256_S1024x256x1_0_1
        (select (cmpi .slt d (broadcastInDim S1024x256 ![] bcast_S_S1024x256 (constantI S_ 32 0#32)))
          (addi d (broadcastInDim S1024x256 ![] bcast_S_S1024x256 (constantI S_ 32 100000#32))) d)))
    (broadcastInDim S1024x256x128 ![] bcast_S_S1024x256x128 (constant (F := Ideal) S_ .f32 0x7FC00000#32))

section Read

attribute [local irreducible] Host.gather

/-- With every index admissible the guarded lookup is the plain one. -/
theorem guard32_eq (emb : FVec Ideal S100000x128 .f32) (q : IVec S1024x32 32) (hq : ∀ i, InRange (q i)) :
    guard32 emb q = Krn.rows32 (F := Ideal) emb q := by
  unfold guard32 Krn.rows32
  exact guarded_eq (s := S1024x32) (s1 := S1024x32x1) (s2 := S1024x32x128) (u := S_) (axes := [2])
    ![0, 1] bcast_S1024x32_S1024x32x1_0_1 ![0, 1] bcast_S1024x32_S1024x32x128_0_1 reducesTo_S1024x32x1_S1024x32_d2 h_S_
    (constantI S_ 1 1#1) rfl q (broadcastInDim S1024x32 ![] bcast_S_S1024x32 (constantI S_ 32 0#32))
    (broadcastInDim S1024x32 ![] bcast_S_S1024x32 (constantI S_ 32 100000#32))
    (broadcastInDim S1024x32x1 ![] bcast_S_S1024x32x1 (constantI S_ 32 0#32))
    (broadcastInDim S1024x32x1 ![0, 1, 2] bcast_S1x1x1_S1024x32x1_0_1_2 (broadcastInDim S1x1x1 ![2] bcast_S1_S1x1x1_2 (constantI S1 32 99999#32)))
    (fun _ => rfl) (fun _ => rfl) (fun _ => rfl) (fun _ => rfl) hq
    (fun idx => Host.gather gather_S100000x128_S1024x32x1_S1024x32x128_2_0_n_n_0_2_1128 emb idx)
    (broadcastInDim S1024x32x128 ![] bcast_S_S1024x32x128 (constant (F := Ideal) S_ .f32 0x7FC00000#32))

theorem guard256_eq (emb : FVec Ideal S100000x128 .f32) (d : IVec S1024x256 32) (hd : ∀ i, InRange (d i)) :
    guard256 emb d = Krn.rows256 (F := Ideal) emb d := by
  unfold guard256 Krn.rows256
  exact guarded_eq (s := S1024x256) (s1 := S1024x256x1) (s2 := S1024x256x128) (u := S_) (axes := [2])
    ![0, 1] bcast_S1024x256_S1024x256x1_0_1 ![0, 1] bcast_S1024x256_S1024x256x128_0_1 reducesTo_S1024x256x1_S1024x256_d2 h_S_
    (constantI S_ 1 1#1) rfl d (broadcastInDim S1024x256 ![] bcast_S_S1024x256 (constantI S_ 32 0#32))
    (broadcastInDim S1024x256 ![] bcast_S_S1024x256 (constantI S_ 32 100000#32))
    (broadcastInDim S1024x256x1 ![] bcast_S_S1024x256x1 (constantI S_ 32 0#32))
    (broadcastInDim S1024x256x1 ![0, 1, 2] bcast_S1x1x1_S1024x256x1_0_1_2 (broadcastInDim S1x1x1 ![2] bcast_S1_S1x1x1_2 (constantI S1 32 99999#32)))
    (fun _ => rfl) (fun _ => rfl) (fun _ => rfl) (fun _ => rfl) hd
    (fun idx => Host.gather gather_S100000x128_S1024x256x1_S1024x256x128_2_0_n_n_0_2_1128 emb idx)
    (broadcastInDim S1024x256x128 ![] bcast_S_S1024x256x128 (constant (F := Ideal) S_ .f32 0x7FC00000#32))

/-- What the region finds in the first looked-up array: the program's guarded lookup of the launched arrays. -/
theorem V_main_v0_read (c : Dev nD) :
    @Eq (FVec Ideal S1024x32x128 .f32) (V m c main_v0)
      (guard32 (m ((c.tc : Thread nD τ).loc main_arg0)) (m ((c.tc : Thread nD τ).loc main_arg3))) := by
  show (V m c main_v0 : FVec Ideal S1024x32x128 .f32) = _
  dsimp only [Gen.V]
  simp only [hostOps0, hostOps0_1, hostOps0_2, hostOps0_3, List.flatten_cons, List.flatten_nil, List.append_nil, List.cons_append, List.nil_append]
  open StableHlo in after_results_simp
  simp only [StableHlo.TRef.ofBuf, StableHlo.TRef.toBuf, cast_eq]
  unfold guard32
  rfl

theorem V_main_v1_read (c : Dev nD) :
    @Eq (FVec Ideal S1024x256x128 .f32) (V m c main_v1)
      (guard256 (m ((c.tc : Thread nD τ).loc main_arg0)) (m ((c.tc : Thread nD τ).loc main_arg4))) := by
  show (V m c main_v1 : FVec Ideal S1024x256x128 .f32) = _
  dsimp only [Gen.V]
  simp only [hostOps0, hostOps0_1, hostOps0_2, hostOps0_3, List.flatten_cons, List.flatten_nil, List.append_nil, List.cons_append, List.nil_append]
  open StableHlo in after_results_simp
  simp only [StableHlo.TRef.ofBuf, StableHlo.TRef.toBuf, cast_eq]
  unfold guard256
  rfl

theorem V_main_v2_read (c : Dev nD) :
    @Eq (FVec Ideal S1024x32x128 .f32) (V m c main_v2)
      (guard32 (m ((c.tc : Thread nD τ).loc main_arg0)) (m ((c.tc : Thread nD τ).loc main_arg5))) := by
  show (V m c main_v2 : FVec Ideal S1024x32x128 .f32) = _
  dsimp only [Gen.V]
  simp only [hostOps0, hostOps0_1, hostOps0_2, hostOps0_3, List.flatten_cons, List.flatten_nil, List.append_nil, List.cons_append, List.nil_append]
  open StableHlo in after_results_simp
  simp only [StableHlo.TRef.ofBuf, StableHlo.TRef.toBuf, cast_eq]
  unfold guard32
  rfl

theorem V_main_v3_read (c : Dev nD) :
    @Eq (FVec Ideal S1024x256x128 .f32) (V m c main_v3)
      (guard256 (m ((c.tc : Thread nD τ).loc main_arg0)) (m ((c.tc : Thread nD τ).loc main_arg6))) := by
  show (V m c main_v3 : FVec Ideal S1024x256x128 .f32) = _
  dsimp only [Gen.V]
  simp only [hostOps0, hostOps0_1, hostOps0_2, hostOps0_3, List.flatten_cons, List.flatten_nil, List.append_nil, List.cons_append, List.nil_append]
  open StableHlo in after_results_simp
  simp only [StableHlo.TRef.ofBuf, StableHlo.TRef.toBuf, cast_eq]
  unfold guard256
  rfl

end Read

/-- The precondition at a device: every entry of its four index arrays is admissible. -/
theorem ranges (hpre : Cert.Pre_KernelIdeal m) (c : Dev nD) :
    (∀ i, InRange ((m ((c.tc : Thread nD τ).loc main_arg3) : IVec S1024x32 32) i))
      ∧ (∀ i, InRange ((m ((c.tc : Thread nD τ).loc main_arg4) : IVec S1024x256 32) i))
      ∧ (∀ i, InRange ((m ((c.tc : Thread nD τ).loc main_arg5) : IVec S1024x32 32) i))
      ∧ (∀ i, InRange ((m ((c.tc : Thread nD τ).loc main_arg6) : IVec S1024x256 32) i)) :=
  ranges_of_pre _ _ _ _ _ _ _ (hpre c)

/-- The first set's query vectors, as the region finds them. -/
theorem V_main_v0 (hpre : Cert.Pre_KernelIdeal m) (c : Dev nD) :
    @Eq (FVec Ideal S1024x32x128 .f32) (V m c main_v0) (Krn.rows32 (F := Ideal) (m ((c.tc : Thread nD τ).loc main_arg0)) (m ((c.tc : Thread nD τ).loc main_arg3))) := by
  rw [V_main_v0_read]; exact guard32_eq _ _ (ranges m hpre c).1

/-- The first set's document vectors. -/
theorem V_main_v1 (hpre : Cert.Pre_KernelIdeal m) (c : Dev nD) :
    @Eq (FVec Ideal S1024x256x128 .f32) (V m c main_v1) (Krn.rows256 (F := Ideal) (m ((c.tc : Thread nD τ).loc main_arg0)) (m ((c.tc : Thread nD τ).loc main_arg4))) := by
  rw [V_main_v1_read]; exact guard256_eq _ _ (ranges m hpre c).2.1

/-- The second set's query vectors. -/
theorem V_main_v2 (hpre : Cert.Pre_KernelIdeal m) (c : Dev nD) :
    @Eq (FVec Ideal S1024x32x128 .f32) (V m c main_v2) (Krn.rows32 (F := Ideal) (m ((c.tc : Thread nD τ).loc main_arg0)) (m ((c.tc : Thread nD τ).loc main_arg5))) := by
  rw [V_main_v2_read]; exact guard32_eq _ _ (ranges m hpre c).2.2.1

/-- The second set's document vectors. -/
theorem V_main_v3 (hpre : Cert.Pre_KernelIdeal m) (c : Dev nD) :
    @Eq (FVec Ideal S1024x256x128 .f32) (V m c main_v3) (Krn.rows256 (F := Ideal) (m ((c.tc : Thread nD τ).loc main_arg0)) (m ((c.tc : Thread nD τ).loc main_arg6))) := by
  rw [V_main_v3_read]; exact guard256_eq _ _ (ranges m hpre c).2.2.2

end Cert.KernelIdeal.Rows

end
-- ==== Proof.KernelBlocks.lean ====
/-
  From the blocks to the whole result array.  The grid has 16 points; point t loads rows 64 t, ..., 64 t + 63 of each of the
  four looked-up arrays, the whole weight row and the bias, and writes back rows 64 t, ..., 64 t + 63 of the 1024 × 1 result.
  What it writes at a row is the row score of that row; the sixteen blocks tile the result; so the result array ends as the
  row score of every row.
-/
import proofs.«407696_j63891933495509_2_alg».proof.Proof.Gen.KernelIdeal.Value
import proofs.«407696_j63891933495509_2_alg».proof.Proof.KernelBody
import proofs.«407696_j63891933495509_2_alg».proof.Proof.KernelRows

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array as a function of the six arrays the region is entered with. -/
abbrev wholeOf (a0 : FVec Ideal S1024x32x128 .f32) (a1 : FVec Ideal S1024x256x128 .f32) (a2 : FVec Ideal S1024x32x128 .f32)
    (a3 : FVec Ideal S1024x256x128 .f32) (a4 : FVec Ideal S1x11 .f32) (a5 : FVec Ideal S1 .f32) : FVec Ideal S1024x1 .f32 :=
  fun i => Knrm.outAt (n := 1024) a0 a1 a2 a3 a4 a5 (i 0)

/-- The row score of a row looks at the arrays only through that row's entries (and the weights and the bias): two families
    of arrays that agree there, row `y` of one against row `r` of the other, give the same score. -/
theorem outAt_congr {n n' : Nat}
    (x0 : (⟨3, ![n, 32, 128]⟩ : Shape).Idx → EReal) (x1 : (⟨3, ![n, 256, 128]⟩ : Shape).Idx → EReal)
    (x2 : (⟨3, ![n, 32, 128]⟩ : Shape).Idx → EReal) (x3 : (⟨3, ![n, 256, 128]⟩ : Shape).Idx → EReal)
    (x4 : (⟨2, ![1, 11]⟩ : Shape).Idx → EReal) (x5 : (⟨1, ![1]⟩ : Shape).Idx → EReal)
    (a0 : (⟨3, ![n', 32, 128]⟩ : Shape).Idx → EReal) (a1 : (⟨3, ![n', 256, 128]⟩ : Shape).Idx → EReal)
    (a2 : (⟨3, ![n', 32, 128]⟩ : Shape).Idx → EReal) (a3 : (⟨3, ![n', 256, 128]⟩ : Shape).Idx → EReal)
    (a4 : (⟨2, ![1, 11]⟩ : Shape).Idx → EReal) (a5 : (⟨1, ![1]⟩ : Shape).Idx → EReal) (y : Fin n) (r : Fin n')
    (h0 : ∀ (q : Fin 32) (e : Fin 128), x0 (ix3 y q e) = a0 (ix3 r q e))
    (h1 : ∀ (d : Fin 256) (e : Fin 128), x1 (ix3 y d e) = a1 (ix3 r d e))
    (h2 : ∀ (q : Fin 32) (e : Fin 128), x2 (ix3 y q e) = a2 (ix3 r q e))
    (h3 : ∀ (d : Fin 256) (e : Fin 128), x3 (ix3 y d e) = a3 (ix3 r d e))
    (h4 : ∀ k : Fin 11, x4 (ix2 0 k) = a4 (ix2 0 k)) (h5 : x5 (ix1 0) = a5 (ix1 0)) :
    Knrm.outAt x0 x1 x2 x3 x4 x5 y = Knrm.outAt a0 a1 a2 a3 a4 a5 r := by
  unfold Knrm.outAt
  simp only [h0, h1, h2, h3, h4, h5]

/-- The printed index maps over the 16 grid points: the four looked-up arrays' blocks and the result's block move together
    along the batch axis, block t at point t, and sit at block 0 along every other axis; the weights and the bias are one
    block each. -/
theorem idx_facts : ∀ t : Fin cfg0.N,
    win0_6.index t (0 : Fin 2) = t.val ∧ win0_6.index t (1 : Fin 2) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 1) = 0 :=
  (by decide +kernel : ∀ t : Fin grid0.N, _)

/-- The blocks point `t` loads, at their literal types. -/
abbrev qblk1 (c : Dev nD) (t : Fin cfg0.N) : Vec Ideal S64x32x128 .f32 := iblk m c 0 t
abbrev dblk1 (c : Dev nD) (t : Fin cfg0.N) : Vec Ideal S64x256x128 .f32 := iblk m c 1 t
abbrev qblk2 (c : Dev nD) (t : Fin cfg0.N) : Vec Ideal S64x32x128 .f32 := iblk m c 2 t
abbrev dblk2 (c : Dev nD) (t : Fin cfg0.N) : Vec Ideal S64x256x128 .f32 := iblk m c 3 t
abbrev wblk (c : Dev nD) (t : Fin cfg0.N) : Vec Ideal S1x11 .f32 := iblk m c 4 t
abbrev bblk (c : Dev nD) (t : Fin cfg0.N) : Vec Ideal S1 .f32 := iblk m c 5 t

/-- Row `y` of the query block point `t` loads is row `64 t + y` of the first looked-up query array. -/
theorem qblk1_apply (c : Dev nD) (t : Fin cfg0.N) (y : Fin 64) (q : Fin 32) (e : Fin 128) (r : Fin 1024)
    (hr : r.val = t.val * 64 + y.val) :
    qblk1 m c t (ix3 y q e) = (V m c main_v0 : FVec Ideal S1024x32x128 .f32) (ix3 r q e) := by
  obtain ⟨-, -, e0, e1, e2, -⟩ := idx_facts t
  show (V m c main_v0 : FVec Ideal S1024x32x128 .f32) (((cfg0.win 0).blk t).view.emb (ix3 y q e)) = _
  congr 1
  funext a; apply Fin.ext
  match a with
  | ⟨0, _⟩ => show win0_0.index t (0 : Fin 3) * 64 + 1 * y.val = r.val; omega
  | ⟨1, _⟩ => show win0_0.index t (1 : Fin 3) * 32 + 1 * q.val = q.val; omega
  | ⟨2, _⟩ => show win0_0.index t (2 : Fin 3) * 128 + 1 * e.val = e.val; omega

theorem dblk1_apply (c : Dev nD) (t : Fin cfg0.N) (y : Fin 64) (d : Fin 256) (e : Fin 128) (r : Fin 1024)
    (hr : r.val = t.val * 64 + y.val) :
    dblk1 m c t (ix3 y d e) = (V m c main_v1 : FVec Ideal S1024x256x128 .f32) (ix3 r d e) := by
  obtain ⟨-, -, -, -, -, e0, e1, e2, -⟩ := idx_facts t
  show (V m c main_v1 : FVec Ideal S1024x256x128 .f32) (((cfg0.win 1).blk t).view.emb (ix3 y d e)) = _
  congr 1
  funext a; apply Fin.ext
  match a with
  | ⟨0, _⟩ => show win0_1.index t (0 : Fin 3) * 64 + 1 * y.val = r.val; omega
  | ⟨1, _⟩ => show win0_1.index t (1 : Fin 3) * 256 + 1 * d.val = d.val; omega
  | ⟨2, _⟩ => show win0_1.index t (2 : Fin 3) * 128 + 1 * e.val = e.val; omega

theorem qblk2_apply (c : Dev nD) (t : Fin cfg0.N) (y : Fin 64) (q : Fin 32) (e : Fin 128) (r : Fin 1024)
    (hr : r.val = t.val * 64 + y.val) :
    qblk2 m c t (ix3 y q e) = (V m c main_v2 : FVec Ideal S1024x32x128 .f32) (ix3 r q e) := by
  obtain ⟨-, -, -, -, -, -, -, -, e0, e1, e2, -⟩ := idx_facts t
  show (V m c main_v2 : FVec Ideal S1024x32x128 .f32) (((cfg0.win 2).blk t).view.emb (ix3 y q e)) = _
  congr 1
  funext a; apply Fin.ext
  match a with
  | ⟨0, _⟩ => show win0_2.index t (0 : Fin 3) * 64 + 1 * y.val = r.val; omega
  | ⟨1, _⟩ => show win0_2.index t (1 : Fin 3) * 32 + 1 * q.val = q.val; omega
  | ⟨2, _⟩ => show win0_2.index t (2 : Fin 3) * 128 + 1 * e.val = e.val; omega

theorem dblk2_apply (c : Dev nD) (t : Fin cfg0.N) (y : Fin 64) (d : Fin 256) (e : Fin 128) (r : Fin 1024)
    (hr : r.val = t.val * 64 + y.val) :
    dblk2 m c t (ix3 y d e) = (V m c main_v3 : FVec Ideal S1024x256x128 .f32) (ix3 r d e) := by
  obtain ⟨-, -, -, -, -, -, -, -, -, -, -, e0, e1, e2, -⟩ := idx_facts t
  show (V m c main_v3 : FVec Ideal S1024x256x128 .f32) (((cfg0.win 3).blk t).view.emb (ix3 y d e)) = _
  congr 1
  funext a; apply Fin.ext
  match a with
  | ⟨0, _⟩ => show win0_3.index t (0 : Fin 3) * 64 + 1 * y.val = r.val; omega
  | ⟨1, _⟩ => show win0_3.index t (1 : Fin 3) * 256 + 1 * d.val = d.val; omega
  | ⟨2, _⟩ => show win0_3.index t (2 : Fin 3) * 128 + 1 * e.val = e.val; omega

/-- The weight block is the whole weight row. -/
theorem wblk_apply (c : Dev nD) (t : Fin cfg0.N) (k : Fin 11) :
    wblk m c t (ix2 0 k) = (V m c main_arg1 : FVec Ideal S1x11 .f32) (ix2 0 k) := by
  obtain ⟨-, -, -, -, -, -, -, -, -, -, -, -, -, -, e0, e1, -⟩ := idx_facts t
  show (V m c main_arg1 : FVec Ideal S1x11 .f32) (((cfg0.win 4).blk t).view.emb (ix2 0 k)) = _
  congr 1
  funext a; apply Fin.ext
  match a with
  | ⟨0, _⟩ => show win0_4.index t (0 : Fin 2) * 1 + 1 * 0 = 0; omega
  | ⟨1, _⟩ => show win0_4.index t (1 : Fin 2) * 11 + 1 * k.val = k.val; omega

/-- The bias block is the bias. -/
theorem bblk_apply (c : Dev nD) (t : Fin cfg0.N) :
    bblk m c t (ix1 0) = (V m c main_arg2 : FVec Ideal S1 .f32) (ix1 0) := by
  obtain ⟨-, -, -, -, -, -, -, -, -, -, -, -, -, -, -, -, e0⟩ := idx_facts t
  show (V m c main_arg2 : FVec Ideal S1 .f32) (((cfg0.win 5).blk t).view.emb (ix1 0)) = _
  congr 1
  funext a; apply Fin.ext
  match a with
  | ⟨0, _⟩ => show win0_5.index t (0 : Fin 1) * 1 + 1 * 0 = 0; omega

/-- What point `t` writes back is block `t` of the row scores of the arrays the region was entered with. -/
theorem flushed_eq (c : Dev nD) (t : Fin cfg0.N) :
    (dats m 0 c).flushed 6 t
      = ((cfg0.win 6).blk t).view.read (Elt Ideal)
          (wholeOf (V m c main_v0) (V m c main_v1) (V m c main_v2) (V m c main_v3) (V m c main_arg1) (V m c main_arg2)) := by
  rw [Value.flushed6]
  obtain ⟨e0, e1, -⟩ := idx_facts t
  funext j
  obtain ⟨y, z, rfl⟩ : ∃ (y : Fin 64) (z : Fin 1), j = ix2 y z := ⟨j 0, j 1, @eq_ix2 64 1 j⟩
  show out0_6 (qblk1 m c t) (dblk1 m c t) (qblk2 m c t) (dblk2 m c t) (wblk m c t) (bblk m c t) (ix2 y z)
      = Knrm.outAt (n := 1024) (V m c main_v0) (V m c main_v1) (V m c main_v2) (V m c main_v3) (V m c main_arg1) (V m c main_arg2)
          ((((cfg0.win 6).blk t).view.emb (ix2 y z)) 0)
  refine (Body.out0_6_apply (qblk1 m c t) (dblk1 m c t) (qblk2 m c t) (dblk2 m c t) (wblk m c t) (bblk m c t) (ix2 y z)).trans ?_
  have hr : ((((cfg0.win 6).blk t).view.emb (ix2 y z)) 0 : Fin 1024).val = t.val * 64 + y.val := by
    show win0_6.index t (0 : Fin 2) * 64 + 1 * y.val = _; omega
  exact outAt_congr _ _ _ _ _ _ _ _ _ _ _ _ y _
    (fun q e => qblk1_apply m c t y q e _ hr) (fun d e => dblk1_apply m c t y d e _ hr)
    (fun q e => qblk2_apply m c t y q e _ hr) (fun d e => dblk2_apply m c t y d e _ hr)
    (fun k => wblk_apply m c t k) (bblk_apply m c t)

/-- An index of the result is in point `t`'s block iff each coordinate is in the block's range on its axis. -/
theorem mem_blk (t : Fin cfg0.N) (i : S1024x1.Idx) :
    i ∈ ((cfg0.win 6).blk t).view.set
      ↔ ∀ a : Fin 2, win0_6.index t a * S64x1.size a ≤ (i a).val ∧ (i a).val < win0_6.index t a * S64x1.size a + S64x1.size a := by
  show i ∈ ((View.whole main_v4).slice (win0_6.rect t)).set ↔ _
  rw [View.set_slice_whole, Rect.mem_set_unit]
  exact Iff.rfl

/-- Every row of the result is in the block of the point that holds it: row r at point r / 64. -/
theorem cover (i : S1024x1.Idx) :
    ∃ t : Fin cfg0.N, (cfg0.win 6).flush t = true ∧ i ∈ ((cfg0.win 6).blk t).view.set := by
  have hi0 : (i 0).val < 1024 := (i 0).isLt
  have hi1 : (i 1).val < 1 := (i 1).isLt
  have ht : (i 0).val / 64 < 16 := by omega
  refine ⟨⟨(i 0).val / 64, ht⟩, flush0_6 _, ?_⟩
  obtain ⟨e0, e1, -⟩ := idx_facts ⟨(i 0).val / 64, ht⟩
  rw [mem_blk]
  intro a
  match a with
  | ⟨0, _⟩ =>
    show win0_6.index ⟨(i 0).val / 64, ht⟩ (0 : Fin 2) * 64 ≤ (i 0).val
      ∧ (i 0).val < win0_6.index ⟨(i 0).val / 64, ht⟩ (0 : Fin 2) * 64 + 64
    have e0' : win0_6.index ⟨(i 0).val / 64, ht⟩ (0 : Fin 2) = (i 0).val / 64 := e0
    omega
  | ⟨1, _⟩ =>
    show win0_6.index ⟨(i 0).val / 64, ht⟩ (1 : Fin 2) * 1 ≤ (i 1).val
      ∧ (i 1).val < win0_6.index ⟨(i 0).val / 64, ht⟩ (1 : Fin 2) * 1 + 1
    omega

/-- After the run the result array is the row score of every row of the arrays the region was entered with. -/
theorem final (c : Dev nD) :
    (dats m 0 c).arrAt 6 cfg0.N
      = wholeOf (V m c main_v0) (V m c main_v1) (V m c main_v2) (V m c main_v3) (V m c main_arg1) (V m c main_arg2) :=
  (dats m 0 c).arrAt_eq_of_cover 6 _ (fun t _ => flushed_eq m c t) cover

/-- The kernel program's run under the precondition: the result is the row score of the looked-up rows. -/
theorem run (hpre : Cert.Pre_KernelIdeal m) :
    θ_run defs (onTc (τ := τ) (main (F := Ideal))) ⟨m, fun _ => 0, ρ⟩ fun r => ∀ c : Dev nD,
      r.2.mem ((c.tc : Thread nD τ).loc main_v4)
        = wholeOf (Krn.rows32 (m ((c.tc : Thread nD τ).loc main_arg0)) (m ((c.tc : Thread nD τ).loc main_arg3))) (Krn.rows256 (m ((c.tc : Thread nD τ).loc main_arg0)) (m ((c.tc : Thread nD τ).loc main_arg4))) (Krn.rows32 (m ((c.tc : Thread nD τ).loc main_arg0)) (m ((c.tc : Thread nD τ).loc main_arg5)))
            (Krn.rows256 (m ((c.tc : Thread nD τ).loc main_arg0)) (m ((c.tc : Thread nD τ).loc main_arg6))) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (by
      rw [final m c, Rows.V_main_v0 m hpre c, Rows.V_main_v1 m hpre c, Rows.V_main_v2 m hpre c, Rows.V_main_v3 m hpre c,
        V_main_arg1, V_main_arg2]), (h c).2⟩)
    (Value.run_blocks m ρ)

end Cert.KernelIdeal.Blocks

end
-- ==== Proof.RefTerm.lean ====
/-
  The reference's operations composed into terms, stage by stage, so that its run can be stated against them and each stage
  read at an index on its own: the wrapped row lookups, the similarities, the pooled bumps, the logits and the score.
-/
import proofs.«407696_j63891933495509_2_alg».proof.Proof.Gen.ReferenceIdeal

noncomputable section

namespace Cert.ReferenceIdeal.Ref

open Cert.ReferenceIdeal Cert.ReferenceIdeal.Facts₀ Cert.ReferenceIdeal.Facts Idealize.ShloMosaic

variable {F : FTy → Type} [FloatOps F]

/-- Rows of the table looked up by a 1024 × 32 array of indices, a negative index counted from the table's end first. -/
def rows32 (emb : FVec F S100000x128 .f32) (q : IVec S1024x32 32) : FVec F S1024x32x128 .f32 :=
  Host.gather gather_S100000x128_S1024x32x1_S1024x32x128_2_0_n_n_0_2_1128 emb
    (broadcastInDim S1024x32x1 ![0, 1] bcast_S1024x32_S1024x32x1_0_1
      (select (cmpi .slt q (broadcastInDim S1024x32 ![] bcast_S_S1024x32 (constantI S_ 32 0#32)))
        (addi q (broadcastInDim S1024x32 ![] bcast_S_S1024x32 (constantI S_ 32 100000#32))) q))

/-- The same for a 1024 × 256 array of indices. -/
def rows256 (emb : FVec F S100000x128 .f32) (d : IVec S1024x256 32) : FVec F S1024x256x128 .f32 :=
  Host.gather gather_S100000x128_S1024x256x1_S1024x256x128_2_0_n_n_0_2_1128 emb
    (broadcastInDim S1024x256x1 ![0, 1] bcast_S1024x256_S1024x256x1_0_1
      (select (cmpi .slt d (broadcastInDim S1024x256 ![] bcast_S_S1024x256 (constantI S_ 32 0#32)))
        (addi d (broadcastInDim S1024x256 ![] bcast_S_S1024x256 (constantI S_ 32 100000#32))) d))

/-- Euclidean norms of the query vectors. -/
def norm32 (qe : FVec F S1024x32x128 .f32) : FVec F S1024x32 .f32 :=
  Host.sqrt (Host.reduceAdd (mulf qe qe) (constant S_ .f32 0x00000000#32) reducesTo_S1024x32x128_S1024x32_d2 h_S_)

/-- Euclidean norms of the document vectors. -/
def norm256 (de : FVec F S1024x256x128 .f32) : FVec F S1024x256 .f32 :=
  Host.sqrt (Host.reduceAdd (mulf de de) (constant S_ .f32 0x00000000#32) reducesTo_S1024x256x128_S1024x256_d2 h_S_)

/-- The similarities: dot products over the floored product of norms. -/
def sim (qe : FVec F S1024x32x128 .f32) (de : FVec F S1024x256x128 .f32) : FVec F S1024x32x256 .f32 :=
  Host.divf (Host.dotGeneral dot_S1024x32x128_S1024x256x128_S1024x32x256_2_2_1_1_0_0 none qe de)
    (maximumf
      (mulf
        (broadcastInDim S1024x32x256 ![0, 1, 2] bcast_S1024x32x1_S1024x32x256_0_1_2
          (broadcastInDim S1024x32x1 ![0, 1] bcast_S1024x32_S1024x32x1_0_1 (norm32 qe)))
        (broadcastInDim S1024x32x256 ![0, 1, 2] bcast_S1024x1x256_S1024x32x256_0_1_2
          (broadcastInDim S1024x1x256 ![0, 2] bcast_S1024x256_S1024x1x256_0_2 (norm256 de))))
      (broadcastInDim S1024x32x256 ![] bcast_S_S1024x32x256 (constant S_ .f32 0x322BCC77#32)))

/-- The standardised distances to the eleven centres, (s - centre) / width, over a fourth axis of the bumps. -/
def zscore (s : FVec F S1024x32x256 .f32) : FVec F S1024x32x256x11 .f32 :=
  Host.divf
    (subf
      (broadcastInDim S1024x32x256x11 ![0, 1, 2, 3] bcast_S1024x32x256x1_S1024x32x256x11_0_1_2_3
        (broadcastInDim S1024x32x256x1 ![0, 1, 2] bcast_S1024x32x256_S1024x32x256x1_0_1_2 s))
      (broadcastInDim S1024x32x256x11 ![0, 1, 2, 3] bcast_S1x1x1x11_S1024x32x256x11_0_1_2_3
        (broadcastInDim S1x1x1x11 ![3] bcast_S11_S1x1x1x11_3 (fun i => FloatOps.ofBits .f32 (lit0 (S11.rowMajor i))))))
    (broadcastInDim S1024x32x256x11 ![0, 1, 2, 3] bcast_S1x1x1x11_S1024x32x256x11_0_1_2_3
      (broadcastInDim S1x1x1x11 ![3] bcast_S11_S1x1x1x11_3 (fun i => FloatOps.ofBits .f32 (lit1 (S11.rowMajor i)))))

/-- The eleven bumps pooled: exp (-1/2 z z) summed over documents, log (1 + .), summed over queries. -/
def pooled (s : FVec F S1024x32x256 .f32) : FVec F S1024x11 .f32 :=
  Host.reduceAdd
    (Host.log1p
      (Host.reduceAdd
        (Host.exp
          (mulf (mulf (broadcastInDim S1024x32x256x11 ![] bcast_S_S1024x32x256x11 (constant S_ .f32 0xBF000000#32)) (zscore s))
            (zscore s)))
        (constant S_ .f32 0x00000000#32) reducesTo_S1024x32x256x11_S1024x32x11_d2 h_S_))
    (constant S_ .f32 0x00000000#32) reducesTo_S1024x32x11_S1024x11_d1 h_S_

/-- The logits: the pooled bumps against the transposed weights, plus the bias. -/
def logits (qe : FVec F S1024x32x128 .f32) (de : FVec F S1024x256x128 .f32) (w : FVec F S1x11 .f32) (b : FVec F S1 .f32) :
    FVec F S1024x1 .f32 :=
  addf
    (Host.dotGeneral dot_S1024x11_S11x1_S1024x1_1_0_0_1_n_n none (pooled (sim qe de))
      (transpose S11x1 [1, 0] w transposes_S1x11_S11x1_1_0))
    (broadcastInDim S1024x1 ![0, 1] bcast_S1x1_S1024x1_0_1 (broadcastInDim S1x1 ![1] bcast_S1_S1x1_1 b))

/-- The score: 1 / (1 + exp (-(l1 - l2))). -/
def score (l1 l2 : FVec F S1024x1 .f32) : FVec F S1024x1 .f32 :=
  Host.divf (broadcastInDim S1024x1 ![] bcast_S_S1024x1 (constant S_ .f32 0x3F800000#32))
    (addf (broadcastInDim S1024x1 ![] bcast_S_S1024x1 (constant S_ .f32 0x3F800000#32)) (Host.exp (Host.negf (subf l1 l2))))

/-- The whole result as a term of the seven argument arrays. -/
def result (emb : FVec F S100000x128 .f32) (w : FVec F S1x11 .f32) (b : FVec F S1 .f32) (q1 : IVec S1024x32 32)
    (d1 : IVec S1024x256 32) (q2 : IVec S1024x32 32) (d2 : IVec S1024x256 32) : FVec F S1024x1 .f32 :=
  score (logits (rows32 emb q1) (rows256 emb d1) w b) (logits (rows32 emb q2) (rows256 emb d2) w b)

end Cert.ReferenceIdeal.Ref

end
-- ==== Proof.RefOps.lean ====
/-
  The reference program's operations in order, as a list: each statement of @main's two parts, and at each of the four
  calls of a norm function the callee's four operations (the square, the zero, the sum over the last axis, the square
  root) over that call's buffers.  The list is cut into 5 consecutive pieces.
-/
import proofs.«407696_j63891933495509_2_alg».proof.Proof.RefTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Operations 1 … 28 of 129. -/
abbrev opsA : List (HloOp τ sig (Elt F)) :=
  [ nullary main_cst (fun i => FloatOps.ofBits .f32 (lit0 (S11.rowMajor i))),
    nullary main_cst_0 (fun i => FloatOps.ofBits .f32 (lit1 (S11.rowMajor i))),
    nullary main_c (constantI S_ 32 0#32),
    unary main_c main_v0 (broadcastInDim S1024x32 ![] bcast_S_S1024x32 : (⟨S_, .i32⟩ : BufTy).Contents (Elt F) → (⟨S1024x32, .i32⟩ : BufTy).Contents (Elt F)),
    binary main_arg3 main_v0 main_v1 (cmpi .slt : (⟨S1024x32, .i32⟩ : BufTy).Contents (Elt F) → (⟨S1024x32, .i32⟩ : BufTy).Contents (Elt F) → (⟨S1024x32, .i1⟩ : BufTy).Contents (Elt F)),
    nullary main_c_1 (constantI S_ 32 100000#32),
    unary main_c_1 main_v2 (broadcastInDim S1024x32 ![] bcast_S_S1024x32 : (⟨S_, .i32⟩ : BufTy).Contents (Elt F) → (⟨S1024x32, .i32⟩ : BufTy).Contents (Elt F)),
    binary main_arg3 main_v2 main_v3 (addi : (⟨S1024x32, .i32⟩ : BufTy).Contents (Elt F) → (⟨S1024x32, .i32⟩ : BufTy).Contents (Elt F) → (⟨S1024x32, .i32⟩ : BufTy).Contents (Elt F)),
    ternary main_v1 main_v3 main_arg3 main_v4 (select : (⟨S1024x32, .i1⟩ : BufTy).Contents (Elt F) → (⟨S1024x32, .i32⟩ : BufTy).Contents (Elt F) → (⟨S1024x32, .i32⟩ : BufTy).Contents (Elt F) → (⟨S1024x32, .i32⟩ : BufTy).Contents (Elt F)),
    unary main_v4 main_v5 (broadcastInDim S1024x32x1 ![0, 1] bcast_S1024x32_S1024x32x1_0_1 : (⟨S1024x32, .i32⟩ : BufTy).Contents (Elt F) → (⟨S1024x32x1, .i32⟩ : BufTy).Contents (Elt F)),
    binary main_arg0 main_v5 main_v6 ((fun x i => Host.gather gather_S100000x128_S1024x32x1_S1024x32x128_2_0_n_n_0_2_1128 x i) : (⟨S100000x128, .f32⟩ : BufTy).Contents (Elt F) → (⟨S1024x32x1, .i32⟩ : BufTy).Contents (Elt F) → (⟨S1024x32x128, .f32⟩ : BufTy).Contents (Elt F)),
    nullary main_c_2 (constantI S_ 32 0#32),
    unary main_c_2 main_v7 (broadcastInDim S1024x256 ![] bcast_S_S1024x256 : (⟨S_, .i32⟩ : BufTy).Contents (Elt F) → (⟨S1024x256, .i32⟩ : BufTy).Contents (Elt F)),
    binary main_arg4 main_v7 main_v8 (cmpi .slt : (⟨S1024x256, .i32⟩ : BufTy).Contents (Elt F) → (⟨S1024x256, .i32⟩ : BufTy).Contents (Elt F) → (⟨S1024x256, .i1⟩ : BufTy).Contents (Elt F)),
    nullary main_c_3 (constantI S_ 32 100000#32),
    unary main_c_3 main_v9 (broadcastInDim S1024x256 ![] bcast_S_S1024x256 : (⟨S_, .i32⟩ : BufTy).Contents (Elt F) → (⟨S1024x256, .i32⟩ : BufTy).Contents (Elt F)),
    binary main_arg4 main_v9 main_v10 (addi : (⟨S1024x256, .i32⟩ : BufTy).Contents (Elt F) → (⟨S1024x256, .i32⟩ : BufTy).Contents (Elt F) → (⟨S1024x256, .i32⟩ : BufTy).Contents (Elt F)),
    ternary main_v8 main_v10 main_arg4 main_v11 (select : (⟨S1024x256, .i1⟩ : BufTy).Contents (Elt F) → (⟨S1024x256, .i32⟩ : BufTy).Contents (Elt F) → (⟨S1024x256, .i32⟩ : BufTy).Contents (Elt F) → (⟨S1024x256, .i32⟩ : BufTy).Contents (Elt F)),
    unary main_v11 main_v12 (broadcastInDim S1024x256x1 ![0, 1] bcast_S1024x256_S1024x256x1_0_1 : (⟨S1024x256, .i32⟩ : BufTy).Contents (Elt F) → (⟨S1024x256x1, .i32⟩ : BufTy).Contents (Elt F)),
    binary main_arg0 main_v12 main_v13 ((fun x i => Host.gather gather_S100000x128_S1024x256x1_S1024x256x128_2_0_n_n_0_2_1128 x i) : (⟨S100000x128, .f32⟩ : BufTy).Contents (Elt F) → (⟨S1024x256x1, .i32⟩ : BufTy).Contents (Elt F) → (⟨S1024x256x128, .f32⟩ : BufTy).Contents (Elt F)),
    TRef.binary (.of main_v6) (.of main_v6) main_call0.v0 mulf,
    TRef.nullary main_call0.cst (constant S_ .f32 0x00000000#32),
    TRef.binary main_call0.v0 main_call0.cst main_call0.v1 (fun x v => Host.reduceAdd x v reducesTo_S1024x32x128_S1024x32_d2 h_S_),
    TRef.unary main_call0.v1 main_call0.v2 Host.sqrt,
    TRef.binary (.of main_v13) (.of main_v13) main_call1.v0 mulf,
    TRef.nullary main_call1.cst (constant S_ .f32 0x00000000#32),
    TRef.binary main_call1.v0 main_call1.cst main_call1.v1 (fun x v => Host.reduceAdd x v reducesTo_S1024x256x128_S1024x256_d2 h_S_),
    TRef.unary main_call1.v1 main_call1.v2 Host.sqrt ]

/-- Operations 29 … 61 of 129. -/
abbrev opsB : List (HloOp τ sig (Elt F)) :=
  [ binary main_v6 main_v13 main_v16 ((fun l r => Host.dotGeneral dot_S1024x32x128_S1024x256x128_S1024x32x256_2_2_1_1_0_0 none l r) : (⟨S1024x32x128, .f32⟩ : BufTy).Contents (Elt F) → (⟨S1024x256x128, .f32⟩ : BufTy).Contents (Elt F) → (⟨S1024x32x256, .f32⟩ : BufTy).Contents (Elt F)),
    unary main_v14 main_v17 (broadcastInDim S1024x32x1 ![0, 1] bcast_S1024x32_S1024x32x1_0_1 : (⟨S1024x32, .f32⟩ : BufTy).Contents (Elt F) → (⟨S1024x32x1, .f32⟩ : BufTy).Contents (Elt F)),
    unary main_v15 main_v18 (broadcastInDim S1024x1x256 ![0, 2] bcast_S1024x256_S1024x1x256_0_2 : (⟨S1024x256, .f32⟩ : BufTy).Contents (Elt F) → (⟨S1024x1x256, .f32⟩ : BufTy).Contents (Elt F)),
    unary main_v17 main_v19 (broadcastInDim S1024x32x256 ![0, 1, 2] bcast_S1024x32x1_S1024x32x256_0_1_2 : (⟨S1024x32x1, .f32⟩ : BufTy).Contents (Elt F) → (⟨S1024x32x256, .f32⟩ : BufTy).Contents (Elt F)),
    unary main_v18 main_v20 (broadcastInDim S1024x32x256 ![0, 1, 2] bcast_S1024x1x256_S1024x32x256_0_1_2 : (⟨S1024x1x256, .f32⟩ : BufTy).Contents (Elt F) → (⟨S1024x32x256, .f32⟩ : BufTy).Contents (Elt F)),
    binary main_v19 main_v20 main_v21 (mulf : (⟨S1024x32x256, .f32⟩ : BufTy).Contents (Elt F) → (⟨S1024x32x256, .f32⟩ : BufTy).Contents (Elt F) → (⟨S1024x32x256, .f32⟩ : BufTy).Contents (Elt F)),
    nullary main_cst_4 (constant S_ .f32 0x322BCC77#32),
    unary main_cst_4 main_v22 (broadcastInDim S1024x32x256 ![] bcast_S_S1024x32x256 : (⟨S_, .f32⟩ : BufTy).Contents (Elt F) → (⟨S1024x32x256, .f32⟩ : BufTy).Contents (Elt F)),
    binary main_v21 main_v22 main_v23 (maximumf : (⟨S1024x32x256, .f32⟩ : BufTy).Contents (Elt F) → (⟨S1024x32x256, .f32⟩ : BufTy).Contents (Elt F) → (⟨S1024x32x256, .f32⟩ : BufTy).Contents (Elt F)),
    binary main_v16 main_v23 main_v24 (Host.divf : (⟨S1024x32x256, .f32⟩ : BufTy).Contents (Elt F) → (⟨S1024x32x256, .f32⟩ : BufTy).Contents (Elt F) → (⟨S1024x32x256, .f32⟩ : BufTy).Contents (Elt F)),
    unary main_v24 main_v25 (broadcastInDim S1024x32x256x1 ![0, 1, 2] bcast_S1024x32x256_S1024x32x256x1_0_1_2 : (⟨S1024x32x256, .f32⟩ : BufTy).Contents (Elt F) → (⟨S1024x32x256x1, .f32⟩ : BufTy).Contents (Elt F)),
    unary main_cst main_v26 (broadcastInDim S1x1x1x11 ![3] bcast_S11_S1x1x1x11_3 : (⟨S11, .f32⟩ : BufTy).Contents (Elt F) → (⟨S1x1x1x11, .f32⟩ : BufTy).Contents (Elt F)),
    unary main_v25 main_v27 (broadcastInDim S1024x32x256x11 ![0, 1, 2, 3] bcast_S1024x32x256x1_S1024x32x256x11_0_1_2_3 : (⟨S1024x32x256x1, .f32⟩ : BufTy).Contents (Elt F) → (⟨S1024x32x256x11, .f32⟩ : BufTy).Contents (Elt F)),
    unary main_v26 main_v28 (broadcastInDim S1024x32x256x11 ![0, 1, 2, 3] bcast_S1x1x1x11_S1024x32x256x11_0_1_2_3 : (⟨S1x1x1x11, .f32⟩ : BufTy).Contents (Elt F) → (⟨S1024x32x256x11, .f32⟩ : BufTy).Contents (Elt F)),
    binary main_v27 main_v28 main_v29 (subf : (⟨S1024x32x256x11, .f32⟩ : BufTy).Contents (Elt F) → (⟨S1024x32x256x11, .f32⟩ : BufTy).Contents (Elt F) → (⟨S1024x32x256x11, .f32⟩ : BufTy).Contents (Elt F)),
    unary main_cst_0 main_v30 (broadcastInDim S1x1x1x11 ![3] bcast_S11_S1x1x1x11_3 : (⟨S11, .f32⟩ : BufTy).Contents (Elt F) → (⟨S1x1x1x11, .f32⟩ : BufTy).Contents (Elt F)),
    unary main_v30 main_v31 (broadcastInDim S1024x32x256x11 ![0, 1, 2, 3] bcast_S1x1x1x11_S1024x32x256x11_0_1_2_3 : (⟨S1x1x1x11, .f32⟩ : BufTy).Contents (Elt F) → (⟨S1024x32x256x11, .f32⟩ : BufTy).Contents (Elt F)),
    binary main_v29 main_v31 main_v32 (Host.divf : (⟨S1024x32x256x11, .f32⟩ : BufTy).Contents (Elt F) → (⟨S1024x32x256x11, .f32⟩ : BufTy).Contents (Elt F) → (⟨S1024x32x256x11, .f32⟩ : BufTy).Contents (Elt F)),
    nullary main_cst_5 (constant S_ .f32 0xBF000000#32),
    unary main_cst_5 main_v33 (broadcastInDim S1024x32x256x11 ![] bcast_S_S1024x32x256x11 : (⟨S_, .f32⟩ : BufTy).Contents (Elt F) → (⟨S1024x32x256x11, .f32⟩ : BufTy).Contents (Elt F)),
    binary main_v33 main_v32 main_v34 (mulf : (⟨S1024x32x256x11, .f32⟩ : BufTy).Contents (Elt F) → (⟨S1024x32x256x11, .f32⟩ : BufTy).Contents (Elt F) → (⟨S1024x32x256x11, .f32⟩ : BufTy).Contents (Elt F)),
    binary main_v34 main_v32 main_v35 (mulf : (⟨S1024x32x256x11, .f32⟩ : BufTy).Contents (Elt F) → (⟨S1024x32x256x11, .f32⟩ : BufTy).Contents (Elt F) → (⟨S1024x32x256x11, .f32⟩ : BufTy).Contents (Elt F)),
    unary main_v35 main_v36 (Host.exp : (⟨S1024x32x256x11, .f32⟩ : BufTy).Contents (Elt F) → (⟨S1024x32x256x11, .f32⟩ : BufTy).Contents (Elt F)),
    nullary main_cst_6 (constant S_ .f32 0x00000000#32),
    binary main_v36 main_cst_6 main_v37 ((fun x v => Host.reduceAdd x v reducesTo_S1024x32x256x11_S1024x32x11_d2 h_S_) : (⟨S1024x32x256x11, .f32⟩ : BufTy).Contents (Elt F) → (⟨S_, .f32⟩ : BufTy).Contents (Elt F) → (⟨S1024x32x11, .f32⟩ : BufTy).Contents (Elt F)),
    unary main_v37 main_v38 (Host.log1p : (⟨S1024x32x11, .f32⟩ : BufTy).Contents (Elt F) → (⟨S1024x32x11, .f32⟩ : BufTy).Contents (Elt F)),
    nullary main_cst_7 (constant S_ .f32 0x00000000#32),
    binary main_v38 main_cst_7 main_v39 ((fun x v => Host.reduceAdd x v reducesTo_S1024x32x11_S1024x11_d1 h_S_) : (⟨S1024x32x11, .f32⟩ : BufTy).Contents (Elt F) → (⟨S_, .f32⟩ : BufTy).Contents (Elt F) → (⟨S1024x11, .f32⟩ : BufTy).Contents (Elt F)),
    unary main_arg1 main_v40 ((transpose S11x1 [1, 0] · transposes_S1x11_S11x1_1_0) : (⟨S1x11, .f32⟩ : BufTy).Contents (Elt F) → (⟨S11x1, .f32⟩ : BufTy).Contents (Elt F)),
    binary main_v39 main_v40 main_v41 ((fun l r => Host.dotGeneral dot_S1024x11_S11x1_S1024x1_1_0_0_1_n_n none l r) : (⟨S1024x11, .f32⟩ : BufTy).Contents (Elt F) → (⟨S11x1, .f32⟩ : BufTy).Contents (Elt F) → (⟨S1024x1, .f32⟩ : BufTy).Contents (Elt F)),
    unary main_arg2 main_v42 (broadcastInDim S1x1 ![1] bcast_S1_S1x1_1 : (⟨S1, .f32⟩ : BufTy).Contents (Elt F) → (⟨S1x1, .f32⟩ : BufTy).Contents (Elt F)),
    unary main_v42 main_v43 (broadcastInDim S1024x1 ![0, 1] bcast_S1x1_S1024x1_0_1 : (⟨S1x1, .f32⟩ : BufTy).Contents (Elt F) → (⟨S1024x1, .f32⟩ : BufTy).Contents (Elt F)),
    binary main_v41 main_v43 main_v44 (addf : (⟨S1024x1, .f32⟩ : BufTy).Contents (Elt F) → (⟨S1024x1, .f32⟩ : BufTy).Contents (Elt F) → (⟨S1024x1, .f32⟩ : BufTy).Contents (Elt F)) ]

/-- Operations 62 … 87 of 129. -/
abbrev opsC : List (HloOp τ sig (Elt F)) :=
  [ nullary main_c_8 (constantI S_ 32 0#32),
    unary main_c_8 main_v45 (broadcastInDim S1024x32 ![] bcast_S_S1024x32 : (⟨S_, .i32⟩ : BufTy).Contents (Elt F) → (⟨S1024x32, .i32⟩ : BufTy).Contents (Elt F)),
    binary main_arg5 main_v45 main_v46 (cmpi .slt : (⟨S1024x32, .i32⟩ : BufTy).Contents (Elt F) → (⟨S1024x32, .i32⟩ : BufTy).Contents (Elt F) → (⟨S1024x32, .i1⟩ : BufTy).Contents (Elt F)),
    nullary main_c_9 (constantI S_ 32 100000#32),
    unary main_c_9 main_v47 (broadcastInDim S1024x32 ![] bcast_S_S1024x32 : (⟨S_, .i32⟩ : BufTy).Contents (Elt F) → (⟨S1024x32, .i32⟩ : BufTy).Contents (Elt F)),
    binary main_arg5 main_v47 main_v48 (addi : (⟨S1024x32, .i32⟩ : BufTy).Contents (Elt F) → (⟨S1024x32, .i32⟩ : BufTy).Contents (Elt F) → (⟨S1024x32, .i32⟩ : BufTy).Contents (Elt F)),
    ternary main_v46 main_v48 main_arg5 main_v49 (select : (⟨S1024x32, .i1⟩ : BufTy).Contents (Elt F) → (⟨S1024x32, .i32⟩ : BufTy).Contents (Elt F) → (⟨S1024x32, .i32⟩ : BufTy).Contents (Elt F) → (⟨S1024x32, .i32⟩ : BufTy).Contents (Elt F)),
    unary main_v49 main_v50 (broadcastInDim S1024x32x1 ![0, 1] bcast_S1024x32_S1024x32x1_0_1 : (⟨S1024x32, .i32⟩ : BufTy).Contents (Elt F) → (⟨S1024x32x1, .i32⟩ : BufTy).Contents (Elt F)),
    binary main_arg0 main_v50 main_v51 ((fun x i => Host.gather gather_S100000x128_S1024x32x1_S1024x32x128_2_0_n_n_0_2_1128 x i) : (⟨S100000x128, .f32⟩ : BufTy).Contents (Elt F) → (⟨S1024x32x1, .i32⟩ : BufTy).Contents (Elt F) → (⟨S1024x32x128, .f32⟩ : BufTy).Contents (Elt F)),
    nullary main_c_10 (constantI S_ 32 0#32),
    unary main_c_10 main_v52 (broadcastInDim S1024x256 ![] bcast_S_S1024x256 : (⟨S_, .i32⟩ : BufTy).Contents (Elt F) → (⟨S1024x256, .i32⟩ : BufTy).Contents (Elt F)),
    binary main_arg6 main_v52 main_v53 (cmpi .slt : (⟨S1024x256, .i32⟩ : BufTy).Contents (Elt F) → (⟨S1024x256, .i32⟩ : BufTy).Contents (Elt F) → (⟨S1024x256, .i1⟩ : BufTy).Contents (Elt F)),
    nullary main_c_11 (constantI S_ 32 100000#32),
    unary main_c_11 main_v54 (broadcastInDim S1024x256 ![] bcast_S_S1024x256 : (⟨S_, .i32⟩ : BufTy).Contents (Elt F) → (⟨S1024x256, .i32⟩ : BufTy).Contents (Elt F)),
    binary main_arg6 main_v54 main_v55 (addi : (⟨S1024x256, .i32⟩ : BufTy).Contents (Elt F) → (⟨S1024x256, .i32⟩ : BufTy).Contents (Elt F) → (⟨S1024x256, .i32⟩ : BufTy).Contents (Elt F)),
    ternary main_v53 main_v55 main_arg6 main_v56 (select : (⟨S1024x256, .i1⟩ : BufTy).Contents (Elt F) → (⟨S1024x256, .i32⟩ : BufTy).Contents (Elt F) → (⟨S1024x256, .i32⟩ : BufTy).Contents (Elt F) → (⟨S1024x256, .i32⟩ : BufTy).Contents (Elt F)),
    unary main_v56 main_v57 (broadcastInDim S1024x256x1 ![0, 1] bcast_S1024x256_S1024x256x1_0_1 : (⟨S1024x256, .i32⟩ : BufTy).Contents (Elt F) → (⟨S1024x256x1, .i32⟩ : BufTy).Contents (Elt F)),
    binary main_arg0 main_v57 main_v58 ((fun x i => Host.gather gather_S100000x128_S1024x256x1_S1024x256x128_2_0_n_n_0_2_1128 x i) : (⟨S100000x128, .f32⟩ : BufTy).Contents (Elt F) → (⟨S1024x256x1, .i32⟩ : BufTy).Contents (Elt F) → (⟨S1024x256x128, .f32⟩ : BufTy).Contents (Elt F)),
    TRef.binary (.of main_v51) (.of main_v51) main_call2.v0 mulf,
    TRef.nullary main_call2.cst (constant S_ .f32 0x00000000#32),
    TRef.binary main_call2.v0 main_call2.cst main_call2.v1 (fun x v => Host.reduceAdd x v reducesTo_S1024x32x128_S1024x32_d2 h_S_),
    TRef.unary main_call2.v1 main_call2.v2 Host.sqrt,
    TRef.binary (.of main_v58) (.of main_v58) main_call3.v0 mulf,
    TRef.nullary main_call3.cst (constant S_ .f32 0x00000000#32),
    TRef.binary main_call3.v0 main_call3.cst main_call3.v1 (fun x v => Host.reduceAdd x v reducesTo_S1024x256x128_S1024x256_d2 h_S_),
    TRef.unary main_call3.v1 main_call3.v2 Host.sqrt ]

/-- Operations 88 … 120 of 129. -/
abbrev opsD : List (HloOp τ sig (Elt F)) :=
  [ binary main_v51 main_v58 main_v61 ((fun l r => Host.dotGeneral dot_S1024x32x128_S1024x256x128_S1024x32x256_2_2_1_1_0_0 none l r) : (⟨S1024x32x128, .f32⟩ : BufTy).Contents (Elt F) → (⟨S1024x256x128, .f32⟩ : BufTy).Contents (Elt F) → (⟨S1024x32x256, .f32⟩ : BufTy).Contents (Elt F)),
    unary main_v59 main_v62 (broadcastInDim S1024x32x1 ![0, 1] bcast_S1024x32_S1024x32x1_0_1 : (⟨S1024x32, .f32⟩ : BufTy).Contents (Elt F) → (⟨S1024x32x1, .f32⟩ : BufTy).Contents (Elt F)),
    unary main_v60 main_v63 (broadcastInDim S1024x1x256 ![0, 2] bcast_S1024x256_S1024x1x256_0_2 : (⟨S1024x256, .f32⟩ : BufTy).Contents (Elt F) → (⟨S1024x1x256, .f32⟩ : BufTy).Contents (Elt F)),
    unary main_v62 main_v64 (broadcastInDim S1024x32x256 ![0, 1, 2] bcast_S1024x32x1_S1024x32x256_0_1_2 : (⟨S1024x32x1, .f32⟩ : BufTy).Contents (Elt F) → (⟨S1024x32x256, .f32⟩ : BufTy).Contents (Elt F)),
    unary main_v63 main_v65 (broadcastInDim S1024x32x256 ![0, 1, 2] bcast_S1024x1x256_S1024x32x256_0_1_2 : (⟨S1024x1x256, .f32⟩ : BufTy).Contents (Elt F) → (⟨S1024x32x256, .f32⟩ : BufTy).Contents (Elt F)),
    binary main_v64 main_v65 main_v66 (mulf : (⟨S1024x32x256, .f32⟩ : BufTy).Contents (Elt F) → (⟨S1024x32x256, .f32⟩ : BufTy).Contents (Elt F) → (⟨S1024x32x256, .f32⟩ : BufTy).Contents (Elt F)),
    nullary main_cst_12 (constant S_ .f32 0x322BCC77#32),
    unary main_cst_12 main_v67 (broadcastInDim S1024x32x256 ![] bcast_S_S1024x32x256 : (⟨S_, .f32⟩ : BufTy).Contents (Elt F) → (⟨S1024x32x256, .f32⟩ : BufTy).Contents (Elt F)),
    binary main_v66 main_v67 main_v68 (maximumf : (⟨S1024x32x256, .f32⟩ : BufTy).Contents (Elt F) → (⟨S1024x32x256, .f32⟩ : BufTy).Contents (Elt F) → (⟨S1024x32x256, .f32⟩ : BufTy).Contents (Elt F)),
    binary main_v61 main_v68 main_v69 (Host.divf : (⟨S1024x32x256, .f32⟩ : BufTy).Contents (Elt F) → (⟨S1024x32x256, .f32⟩ : BufTy).Contents (Elt F) → (⟨S1024x32x256, .f32⟩ : BufTy).Contents (Elt F)),
    unary main_v69 main_v70 (broadcastInDim S1024x32x256x1 ![0, 1, 2] bcast_S1024x32x256_S1024x32x256x1_0_1_2 : (⟨S1024x32x256, .f32⟩ : BufTy).Contents (Elt F) → (⟨S1024x32x256x1, .f32⟩ : BufTy).Contents (Elt F)),
    unary main_cst main_v71 (broadcastInDim S1x1x1x11 ![3] bcast_S11_S1x1x1x11_3 : (⟨S11, .f32⟩ : BufTy).Contents (Elt F) → (⟨S1x1x1x11, .f32⟩ : BufTy).Contents (Elt F)),
    unary main_v70 main_v72 (broadcastInDim S1024x32x256x11 ![0, 1, 2, 3] bcast_S1024x32x256x1_S1024x32x256x11_0_1_2_3 : (⟨S1024x32x256x1, .f32⟩ : BufTy).Contents (Elt F) → (⟨S1024x32x256x11, .f32⟩ : BufTy).Contents (Elt F)),
    unary main_v71 main_v73 (broadcastInDim S1024x32x256x11 ![0, 1, 2, 3] bcast_S1x1x1x11_S1024x32x256x11_0_1_2_3 : (⟨S1x1x1x11, .f32⟩ : BufTy).Contents (Elt F) → (⟨S1024x32x256x11, .f32⟩ : BufTy).Contents (Elt F)),
    binary main_v72 main_v73 main_v74 (subf : (⟨S1024x32x256x11, .f32⟩ : BufTy).Contents (Elt F) → (⟨S1024x32x256x11, .f32⟩ : BufTy).Contents (Elt F) → (⟨S1024x32x256x11, .f32⟩ : BufTy).Contents (Elt F)),
    unary main_cst_0 main_v75 (broadcastInDim S1x1x1x11 ![3] bcast_S11_S1x1x1x11_3 : (⟨S11, .f32⟩ : BufTy).Contents (Elt F) → (⟨S1x1x1x11, .f32⟩ : BufTy).Contents (Elt F)),
    unary main_v75 main_v76 (broadcastInDim S1024x32x256x11 ![0, 1, 2, 3] bcast_S1x1x1x11_S1024x32x256x11_0_1_2_3 : (⟨S1x1x1x11, .f32⟩ : BufTy).Contents (Elt F) → (⟨S1024x32x256x11, .f32⟩ : BufTy).Contents (Elt F)),
    binary main_v74 main_v76 main_v77 (Host.divf : (⟨S1024x32x256x11, .f32⟩ : BufTy).Contents (Elt F) → (⟨S1024x32x256x11, .f32⟩ : BufTy).Contents (Elt F) → (⟨S1024x32x256x11, .f32⟩ : BufTy).Contents (Elt F)),
    nullary main_cst_13 (constant S_ .f32 0xBF000000#32),
    unary main_cst_13 main_v78 (broadcastInDim S1024x32x256x11 ![] bcast_S_S1024x32x256x11 : (⟨S_, .f32⟩ : BufTy).Contents (Elt F) → (⟨S1024x32x256x11, .f32⟩ : BufTy).Contents (Elt F)),
    binary main_v78 main_v77 main_v79 (mulf : (⟨S1024x32x256x11, .f32⟩ : BufTy).Contents (Elt F) → (⟨S1024x32x256x11, .f32⟩ : BufTy).Contents (Elt F) → (⟨S1024x32x256x11, .f32⟩ : BufTy).Contents (Elt F)),
    binary main_v79 main_v77 main_v80 (mulf : (⟨S1024x32x256x11, .f32⟩ : BufTy).Contents (Elt F) → (⟨S1024x32x256x11, .f32⟩ : BufTy).Contents (Elt F) → (⟨S1024x32x256x11, .f32⟩ : BufTy).Contents (Elt F)),
    unary main_v80 main_v81 (Host.exp : (⟨S1024x32x256x11, .f32⟩ : BufTy).Contents (Elt F) → (⟨S1024x32x256x11, .f32⟩ : BufTy).Contents (Elt F)),
    nullary main_cst_14 (constant S_ .f32 0x00000000#32),
    binary main_v81 main_cst_14 main_v82 ((fun x v => Host.reduceAdd x v reducesTo_S1024x32x256x11_S1024x32x11_d2 h_S_) : (⟨S1024x32x256x11, .f32⟩ : BufTy).Contents (Elt F) → (⟨S_, .f32⟩ : BufTy).Contents (Elt F) → (⟨S1024x32x11, .f32⟩ : BufTy).Contents (Elt F)),
    unary main_v82 main_v83 (Host.log1p : (⟨S1024x32x11, .f32⟩ : BufTy).Contents (Elt F) → (⟨S1024x32x11, .f32⟩ : BufTy).Contents (Elt F)),
    nullary main_cst_15 (constant S_ .f32 0x00000000#32),
    binary main_v83 main_cst_15 main_v84 ((fun x v => Host.reduceAdd x v reducesTo_S1024x32x11_S1024x11_d1 h_S_) : (⟨S1024x32x11, .f32⟩ : BufTy).Contents (Elt F) → (⟨S_, .f32⟩ : BufTy).Contents (Elt F) → (⟨S1024x11, .f32⟩ : BufTy).Contents (Elt F)),
    unary main_arg1 main_v85 ((transpose S11x1 [1, 0] · transposes_S1x11_S11x1_1_0) : (⟨S1x11, .f32⟩ : BufTy).Contents (Elt F) → (⟨S11x1, .f32⟩ : BufTy).Contents (Elt F)),
    binary main_v84 main_v85 main_v86 ((fun l r => Host.dotGeneral dot_S1024x11_S11x1_S1024x1_1_0_0_1_n_n none l r) : (⟨S1024x11, .f32⟩ : BufTy).Contents (Elt F) → (⟨S11x1, .f32⟩ : BufTy).Contents (Elt F) → (⟨S1024x1, .f32⟩ : BufTy).Contents (Elt F)),
    unary main_arg2 main_v87 (broadcastInDim S1x1 ![1] bcast_S1_S1x1_1 : (⟨S1, .f32⟩ : BufTy).Contents (Elt F) → (⟨S1x1, .f32⟩ : BufTy).Contents (Elt F)),
    unary main_v87 main_v88 (broadcastInDim S1024x1 ![0, 1] bcast_S1x1_S1024x1_0_1 : (⟨S1x1, .f32⟩ : BufTy).Contents (Elt F) → (⟨S1024x1, .f32⟩ : BufTy).Contents (Elt F)),
    binary main_v86 main_v88 main_v89 (addf : (⟨S1024x1, .f32⟩ : BufTy).Contents (Elt F) → (⟨S1024x1, .f32⟩ : BufTy).Contents (Elt F) → (⟨S1024x1, .f32⟩ : BufTy).Contents (Elt F)) ]

/-- Operations 121 … 129 of 129. -/
abbrev opsE : List (HloOp τ sig (Elt F)) :=
  [ binary main_v44 main_v89 main_v90 (subf : (⟨S1024x1, .f32⟩ : BufTy).Contents (Elt F) → (⟨S1024x1, .f32⟩ : BufTy).Contents (Elt F) → (⟨S1024x1, .f32⟩ : BufTy).Contents (Elt F)),
    unary main_v90 main_v91 (Host.negf : (⟨S1024x1, .f32⟩ : BufTy).Contents (Elt F) → (⟨S1024x1, .f32⟩ : BufTy).Contents (Elt F)),
    unary main_v91 main_v92 (Host.exp : (⟨S1024x1, .f32⟩ : BufTy).Contents (Elt F) → (⟨S1024x1, .f32⟩ : BufTy).Contents (Elt F)),
    nullary main_cst_16 (constant S_ .f32 0x3F800000#32),
    unary main_cst_16 main_v93 (broadcastInDim S1024x1 ![] bcast_S_S1024x1 : (⟨S_, .f32⟩ : BufTy).Contents (Elt F) → (⟨S1024x1, .f32⟩ : BufTy).Contents (Elt F)),
    binary main_v93 main_v92 main_v94 (addf : (⟨S1024x1, .f32⟩ : BufTy).Contents (Elt F) → (⟨S1024x1, .f32⟩ : BufTy).Contents (Elt F) → (⟨S1024x1, .f32⟩ : BufTy).Contents (Elt F)),
    nullary main_cst_17 (constant S_ .f32 0x3F800000#32),
    unary main_cst_17 main_v95 (broadcastInDim S1024x1 ![] bcast_S_S1024x1 : (⟨S_, .f32⟩ : BufTy).Contents (Elt F) → (⟨S1024x1, .f32⟩ : BufTy).Contents (Elt F)),
    binary main_v95 main_v94 main_v96 (Host.divf : (⟨S1024x1, .f32⟩ : BufTy).Contents (Elt F) → (⟨S1024x1, .f32⟩ : BufTy).Contents (Elt F) → (⟨S1024x1, .f32⟩ : BufTy).Contents (Elt F)) ]

/-- All 129 operations. -/
abbrev ops : List (HloOp τ sig (Elt F)) :=
  opsA (F := F) ++ (opsB (F := F) ++ (opsC (F := F) ++ (opsD (F := F) ++ (opsE (F := F)))))

end Cert.ReferenceIdeal.Run

end
-- ==== Proof.RefRun.lean ====
/-
  The reference program's run: its @main is a straight line of host operations (the two norm functions written out at their
  four calls), so every execution ends with each buffer at the operations' composed value of the arguments, and the result
  buffer at the score term of the seven argument arrays.
-/
import proofs.«407696_j63891933495509_2_alg».proof.Proof.RefTerm
import proofs.«407696_j63891933495509_2_alg».proof.Proof.RefOps
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Two lists run in turn are their concatenation run as one. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The program is the list -/

-- some hundred and thirty binds are re-associated, one level of recursion each
set_option maxRecDepth 4096 in
/-- @main is the straight line of the listed operations: its two parts and the norm functions unfolded at their calls,
    both sides are one chain of steps once sequencing is re-associated. -/
theorem main_eq (c : Dev nD) : main (F := F) c = seq ops := by
  simp only [main, main_part0, main_part1, fn_norm.body, fn_norm_0.body, ops, opsA, opsB, opsC, opsD, opsE, seq_append, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: piece by piece, each builder's own fact. -/
theorem opsA_sub : (opsA : List (HloOp τ sig (Elt F))).Forall fun op => op.bufs ⊆ tcRefs τ sig := by
  simp only [opsA, List.Forall, nullary_bufs_sub, unary_bufs_sub, binary_bufs_sub, ternary_bufs_sub, and_self]
theorem opsB_sub : (opsB : List (HloOp τ sig (Elt F))).Forall fun op => op.bufs ⊆ tcRefs τ sig := by
  simp only [opsB, List.Forall, nullary_bufs_sub, unary_bufs_sub, binary_bufs_sub, ternary_bufs_sub, and_self]
theorem opsC_sub : (opsC : List (HloOp τ sig (Elt F))).Forall fun op => op.bufs ⊆ tcRefs τ sig := by
  simp only [opsC, List.Forall, nullary_bufs_sub, unary_bufs_sub, binary_bufs_sub, ternary_bufs_sub, and_self]
theorem opsD_sub : (opsD : List (HloOp τ sig (Elt F))).Forall fun op => op.bufs ⊆ tcRefs τ sig := by
  simp only [opsD, List.Forall, nullary_bufs_sub, unary_bufs_sub, binary_bufs_sub, ternary_bufs_sub, and_self]
theorem opsE_sub : (opsE : List (HloOp τ sig (Elt F))).Forall fun op => op.bufs ⊆ tcRefs τ sig := by
  simp only [opsE, List.Forall, nullary_bufs_sub, unary_bufs_sub, binary_bufs_sub, ternary_bufs_sub, and_self]

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h]

/-! ## The arguments are never written -/

/-- The seven argument buffers. -/
abbrev argsL : List (Ref sig .tc) := [main_arg0, main_arg1, main_arg2, main_arg3, main_arg4, main_arg5, main_arg6]

theorem A_args (V : Valuation τ sig (Elt F)) : ∀ r ∈ argsL, after opsA V (Proc.devRef .tc r) = V (Proc.devRef .tc r) := by
  intro r h
  fin_cases h <;> (simp only [opsA]; after_results_simp)
theorem B_args (V : Valuation τ sig (Elt F)) : ∀ r ∈ argsL, after opsB V (Proc.devRef .tc r) = V (Proc.devRef .tc r) := by
  intro r h
  fin_cases h <;> (simp only [opsB]; after_results_simp)
theorem C_args (V : Valuation τ sig (Elt F)) : ∀ r ∈ argsL, after opsC V (Proc.devRef .tc r) = V (Proc.devRef .tc r) := by
  intro r h
  fin_cases h <;> (simp only [opsC]; after_results_simp)
theorem D_args (V : Valuation τ sig (Elt F)) : ∀ r ∈ argsL, after opsD V (Proc.devRef .tc r) = V (Proc.devRef .tc r) := by
  intro r h
  fin_cases h <;> (simp only [opsD]; after_results_simp)
theorem E_args (V : Valuation τ sig (Elt F)) : ∀ r ∈ argsL, after opsE V (Proc.devRef .tc r) = V (Proc.devRef .tc r) := by
  intro r h
  fin_cases h <;> (simp only [opsE]; after_results_simp)

/-- An argument buffer holds after the whole list what it held before. -/
theorem args_eq (V : Valuation τ sig (Elt F)) : ∀ r ∈ argsL, after ops V (Proc.devRef .tc r) = V (Proc.devRef .tc r) := by
  intro r h
  simp only [ops, after_app]
  rw [E_args _ r h, D_args _ r h, C_args _ r h, B_args _ r h, A_args _ r h]

/-! ## The first pair's rows and norms (operations 1 … 28) -/

theorem A_cst (V : Valuation τ sig (Elt F)) :
    after opsA V (main_cst : DevRef τ sig) = (fun i => FloatOps.ofBits .f32 (lit0 (S11.rowMajor i)) : FVec F S11 .f32) := by
  simp only [opsA]
  after_results_simp <;> rfl

theorem A_cst_0 (V : Valuation τ sig (Elt F)) :
    after opsA V (main_cst_0 : DevRef τ sig) = (fun i => FloatOps.ofBits .f32 (lit1 (S11.rowMajor i)) : FVec F S11 .f32) := by
  simp only [opsA]
  after_results_simp <;> rfl

theorem A_v6 (V : Valuation τ sig (Elt F)) :
    after opsA V (main_v6 : DevRef τ sig) = Ref.rows32 (V (main_arg0 : DevRef τ sig)) (V (main_arg3 : DevRef τ sig)) := by
  simp only [opsA]
  after_results_simp <;> rfl

theorem A_v13 (V : Valuation τ sig (Elt F)) :
    after opsA V (main_v13 : DevRef τ sig) = Ref.rows256 (V (main_arg0 : DevRef τ sig)) (V (main_arg4 : DevRef τ sig)) := by
  simp only [opsA]
  after_results_simp <;> rfl

theorem A_v14 (V : Valuation τ sig (Elt F)) :
    after opsA V (main_v14 : DevRef τ sig)
      = Ref.norm32 (Ref.rows32 (V (main_arg0 : DevRef τ sig)) (V (main_arg3 : DevRef τ sig))) := by
  simp only [opsA]
  after_results_simp <;> rfl

theorem A_v15 (V : Valuation τ sig (Elt F)) :
    after opsA V (main_v15 : DevRef τ sig)
      = Ref.norm256 (Ref.rows256 (V (main_arg0 : DevRef τ sig)) (V (main_arg4 : DevRef τ sig))) := by
  simp only [opsA]
  after_results_simp <;> rfl

/-! ## The first pair's logits (operations 29 … 61) -/

/-- From rows, their norms and the two tables of centres and widths in their buffers, the logits: the similarities, the
    standardised distances, the pooled bumps, the product with the weights plus the bias. -/
theorem B_v44 (V : Valuation τ sig (Elt F)) (qe : FVec F S1024x32x128 .f32) (de : FVec F S1024x256x128 .f32)
    (h6 : V (main_v6 : DevRef τ sig) = qe) (h13 : V (main_v13 : DevRef τ sig) = de)
    (h14 : V (main_v14 : DevRef τ sig) = Ref.norm32 qe) (h15 : V (main_v15 : DevRef τ sig) = Ref.norm256 de)
    (hc : V (main_cst : DevRef τ sig) = (fun i => FloatOps.ofBits .f32 (lit0 (S11.rowMajor i)) : FVec F S11 .f32))
    (hc0 : V (main_cst_0 : DevRef τ sig) = (fun i => FloatOps.ofBits .f32 (lit1 (S11.rowMajor i)) : FVec F S11 .f32)) :
    after opsB V (main_v44 : DevRef τ sig)
      = Ref.logits qe de (V (main_arg1 : DevRef τ sig)) (V (main_arg2 : DevRef τ sig)) := by
  simp only [opsB]
  after_results_simp
  simp only [h6, h13, h14, h15, hc, hc0]
  rfl

theorem B_cst (V : Valuation τ sig (Elt F)) : after opsB V (main_cst : DevRef τ sig) = V (main_cst : DevRef τ sig) := by
  simp only [opsB]
  after_results_simp

theorem B_cst_0 (V : Valuation τ sig (Elt F)) : after opsB V (main_cst_0 : DevRef τ sig) = V (main_cst_0 : DevRef τ sig) := by
  simp only [opsB]
  after_results_simp

/-! ## The second pair's rows and norms (operations 62 … 87) -/

theorem C_v51 (V : Valuation τ sig (Elt F)) :
    after opsC V (main_v51 : DevRef τ sig) = Ref.rows32 (V (main_arg0 : DevRef τ sig)) (V (main_arg5 : DevRef τ sig)) := by
  simp only [opsC]
  after_results_simp <;> rfl

theorem C_v58 (V : Valuation τ sig (Elt F)) :
    after opsC V (main_v58 : DevRef τ sig) = Ref.rows256 (V (main_arg0 : DevRef τ sig)) (V (main_arg6 : DevRef τ sig)) := by
  simp only [opsC]
  after_results_simp <;> rfl

theorem C_v59 (V : Valuation τ sig (Elt F)) :
    after opsC V (main_v59 : DevRef τ sig)
      = Ref.norm32 (Ref.rows32 (V (main_arg0 : DevRef τ sig)) (V (main_arg5 : DevRef τ sig))) := by
  simp only [opsC]
  after_results_simp <;> rfl

theorem C_v60 (V : Valuation τ sig (Elt F)) :
    after opsC V (main_v60 : DevRef τ sig)
      = Ref.norm256 (Ref.rows256 (V (main_arg0 : DevRef τ sig)) (V (main_arg6 : DevRef τ sig))) := by
  simp only [opsC]
  after_results_simp <;> rfl

theorem C_cst (V : Valuation τ sig (Elt F)) : after opsC V (main_cst : DevRef τ sig) = V (main_cst : DevRef τ sig) := by
  simp only [opsC]
  after_results_simp

theorem C_cst_0 (V : Valuation τ sig (Elt F)) : after opsC V (main_cst_0 : DevRef τ sig) = V (main_cst_0 : DevRef τ sig) := by
  simp only [opsC]
  after_results_simp

theorem C_v44 (V : Valuation τ sig (Elt F)) : after opsC V (main_v44 : DevRef τ sig) = V (main_v44 : DevRef τ sig) := by
  simp only [opsC]
  after_results_simp

/-! ## The second pair's logits (operations 88 … 120) -/

/-- As for the first pair, over the second pair's buffers. -/
theorem D_v89 (V : Valuation τ sig (Elt F)) (qe : FVec F S1024x32x128 .f32) (de : FVec F S1024x256x128 .f32)
    (h51 : V (main_v51 : DevRef τ sig) = qe) (h58 : V (main_v58 : DevRef τ sig) = de)
    (h59 : V (main_v59 : DevRef τ sig) = Ref.norm32 qe) (h60 : V (main_v60 : DevRef τ sig) = Ref.norm256 de)
    (hc : V (main_cst : DevRef τ sig) = (fun i => FloatOps.ofBits .f32 (lit0 (S11.rowMajor i)) : FVec F S11 .f32))
    (hc0 : V (main_cst_0 : DevRef τ sig) = (fun i => FloatOps.ofBits .f32 (lit1 (S11.rowMajor i)) : FVec F S11 .f32)) :
    after opsD V (main_v89 : DevRef τ sig)
      = Ref.logits qe de (V (main_arg1 : DevRef τ sig)) (V (main_arg2 : DevRef τ sig)) := by
  simp only [opsD]
  after_results_simp
  simp only [h51, h58, h59, h60, hc, hc0]
  rfl

theorem D_v44 (V : Valuation τ sig (Elt F)) : after opsD V (main_v44 : DevRef τ sig) = V (main_v44 : DevRef τ sig) := by
  simp only [opsD]
  after_results_simp

/-! ## The score (operations 121 … 129) -/

theorem E_v96 (V : Valuation τ sig (Elt F)) :
    after opsE V (main_v96 : DevRef τ sig) = Ref.score (V (main_v44 : DevRef τ sig)) (V (main_v89 : DevRef τ sig)) := by
  simp only [opsE]
  after_results_simp <;> rfl

/-! ## The whole list -/

/-- The result buffer after the whole list: the score of the two pairs' logits. -/
theorem result_eq (V : Valuation τ sig (Elt F)) :
    after ops V (main_v96 : DevRef τ sig)
      = Ref.result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  simp only [ops, after_app]
  have k1 : ∀ r ∈ argsL, after opsA V (Proc.devRef .tc r) = V (Proc.devRef .tc r) := A_args V
  have k2 : ∀ r ∈ argsL, after opsB (after opsA V) (Proc.devRef .tc r) = V (Proc.devRef .tc r) :=
    fun r h => (B_args _ r h).trans (k1 r h)
  have k3 : ∀ r ∈ argsL, after opsC (after opsB (after opsA V)) (Proc.devRef .tc r) = V (Proc.devRef .tc r) :=
    fun r h => (C_args _ r h).trans (k2 r h)
  have l1 : after opsD (after opsC (after opsB (after opsA V))) (main_v44 : DevRef τ sig)
      = Ref.logits (Ref.rows32 (V (main_arg0 : DevRef τ sig)) (V (main_arg3 : DevRef τ sig)))
          (Ref.rows256 (V (main_arg0 : DevRef τ sig)) (V (main_arg4 : DevRef τ sig)))
          (V (main_arg1 : DevRef τ sig)) (V (main_arg2 : DevRef τ sig)) := by
    rw [D_v44, C_v44, B_v44 (after opsA V) _ _ (A_v6 V) (A_v13 V) (A_v14 V) (A_v15 V) (A_cst V) (A_cst_0 V),
      k1 main_arg1 (by decide), k1 main_arg2 (by decide)]
  have l2 : after opsD (after opsC (after opsB (after opsA V))) (main_v89 : DevRef τ sig)
      = Ref.logits (Ref.rows32 (V (main_arg0 : DevRef τ sig)) (V (main_arg5 : DevRef τ sig)))
          (Ref.rows256 (V (main_arg0 : DevRef τ sig)) (V (main_arg6 : DevRef τ sig)))
          (V (main_arg1 : DevRef τ sig)) (V (main_arg2 : DevRef τ sig)) := by
    rw [D_v89 _ _ _ (C_v51 _) (C_v58 _) (C_v59 _) (C_v60 _) ((C_cst _).trans ((B_cst _).trans (A_cst V)))
        ((C_cst_0 _).trans ((B_cst_0 _).trans (A_cst_0 V))),
      k3 main_arg1 (by decide), k3 main_arg2 (by decide), k2 main_arg0 (by decide), k2 main_arg5 (by decide),
      k2 main_arg6 (by decide)]
  rw [E_v96, l1, l2]
  rfl

/-! ## The run -/

/-- Every weakly fair execution of the reference terminates with the result buffer at the score term of the argument arrays
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96)
        = Ref.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c main_v96).trans (result_eq (launchContents m c)),
      (h c main_arg0).trans (args_eq (launchContents m c) main_arg0 (by decide)),
      (h c main_arg1).trans (args_eq (launchContents m c) main_arg1 (by decide)),
      (h c main_arg2).trans (args_eq (launchContents m c) main_arg2 (by decide)),
      (h c main_arg3).trans (args_eq (launchContents m c) main_arg3 (by decide)),
      (h c main_arg4).trans (args_eq (launchContents m c) main_arg4 (by decide)),
      (h c main_arg5).trans (args_eq (launchContents m c) main_arg5 (by decide)),
      (h c main_arg6).trans (args_eq (launchContents m c) main_arg6 (by decide))⟩)
    (run_seq scopedRefs_eq scopedSems_eq defs main (fun _ => ops) main_eq (fun _ => ops_sub) m ρ)

end Cert.ReferenceIdeal.Run

end
-- ==== Proof.RefValue.lean ====
/-
  The reference's score term read at an index: row r of the result is the row score of the specification, of the looked-up
  query and document vectors, the weights and the bias.
-/
import proofs.«407696_j63891933495509_2_alg».proof.Proof.RefTerm
import proofs.«407696_j63891933495509_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefValue

open Cert.ReferenceIdeal Idealize.ShloMosaic Idealize.ShloMosaic.ValueIdx

/-! ## The host's one-operand operations and its sums, read at an index -/

/-- The host's square root at an index is the square root of the element. -/
theorem hostSqrt_apply {s : Shape} (x : FVec Ideal s .f32) (i : s.Idx) : Host.sqrt x i = Ideal.sqrt (x i) := rfl
/-- The host's exponential at an index is the exponential of the element. -/
theorem hostExp_apply {s : Shape} (x : FVec Ideal s .f32) (i : s.Idx) : Host.exp x i = Ideal.exp (x i) := rfl
/-- The host's log (1 + ·) at an index is that of the element. -/
theorem hostLog1p_apply {s : Shape} (x : FVec Ideal s .f32) (i : s.Idx) : Host.log1p x i = Ideal.log1p (x i) := rfl
/-- The host's negation at an index is the negation of the element. -/
theorem hostNegf_apply {s : Shape} (x : FVec Ideal s .f32) (i : s.Idx) : Host.negf x i = -(x i) := rfl

/-- A host sum over one axis started from the zero word is the plain sum over that axis's coordinates. -/
theorem hostReduceAdd_zero_apply {s t : Shape} {a : Fin s.rank} (x : FVec Ideal s .f32) (h' : s.ReducesTo [a] t)
    (h : s.Reduces [a] t) (hu : 0 < S_.numel) (j : t.Idx) :
    Host.reduceAdd x (constant (F := Ideal) S_ .f32 0x00000000#32) h' hu j = ∑ k : Fin (s.size a), x (h.lift j k) := by
  show Ideal.hostReduceAdd h' x (Ideal.ofBits .f32 0x00000000#32) j = _
  rw [Ideal.hostReduceAdd_single h' h, Ideal.ofBits_zero_f32, zero_add]

/-! ## The two norms -/

/-- The norm of a query vector: the square root of its sum of squares. -/
theorem norm32_apply (qe : FVec Ideal S1024x32x128 .f32) (r : Fin 1024) (q : Fin 32) :
    Ref.norm32 qe (ix2 r q) = Ideal.sqrt (∑ e : Fin 128, qe (ix3 r q e) * qe (ix3 r q e)) := by
  have h : S1024x32x128.Reduces [2] S1024x32 := by decide
  unfold Ref.norm32
  rw [hostSqrt_apply, hostReduceAdd_zero_apply _ _ h]
  refine congrArg Ideal.sqrt ?_
  show ∑ e : Fin 128, mulf qe qe (h.lift (ix2 r q) e) = _
  refine Finset.sum_congr rfl fun e _ => ?_
  have hi : h.lift (ix2 r q) e = ix3 r q e :=
    funext fun a => Fin.ext (match a with | ⟨0, _⟩ => rfl | ⟨1, _⟩ => rfl | ⟨2, _⟩ => rfl)
  rw [hi, mulf_apply]

/-- The norm of a document vector: the square root of its sum of squares. -/
theorem norm256_apply (de : FVec Ideal S1024x256x128 .f32) (r : Fin 1024) (d : Fin 256) :
    Ref.norm256 de (ix2 r d) = Ideal.sqrt (∑ e : Fin 128, de (ix3 r d e) * de (ix3 r d e)) := by
  have h : S1024x256x128.Reduces [2] S1024x256 := by decide
  unfold Ref.norm256
  rw [hostSqrt_apply, hostReduceAdd_zero_apply _ _ h]
  refine congrArg Ideal.sqrt ?_
  show ∑ e : Fin 128, mulf de de (h.lift (ix2 r d) e) = _
  refine Finset.sum_congr rfl fun e _ => ?_
  have hi : h.lift (ix2 r d) e = ix3 r d e :=
    funext fun a => Fin.ext (match a with | ⟨0, _⟩ => rfl | ⟨1, _⟩ => rfl | ⟨2, _⟩ => rfl)
  rw [hi, mulf_apply]

/-! ## The two products -/

/-! The operand indices of the batched product, axis by axis: the batch axis reads the row, the free axis the query (left) or
the document (right), the contracted axis the one coordinate of the contraction index. -/

theorem dots_lhs_0 (j : S1024x32x256.Idx) (k : dot_S1024x32x128_S1024x256x128_S1024x32x256_2_2_1_1_0_0.contr.Idx) :
    (dot_S1024x32x128_S1024x256x128_S1024x32x256_2_2_1_1_0_0.lhsIdx j k 0).val = (j 0).val := rfl
theorem dots_lhs_1 (j : S1024x32x256.Idx) (k : dot_S1024x32x128_S1024x256x128_S1024x32x256_2_2_1_1_0_0.contr.Idx) :
    (dot_S1024x32x128_S1024x256x128_S1024x32x256_2_2_1_1_0_0.lhsIdx j k 1).val = (j 1).val := rfl
theorem dots_lhs_2 (j : S1024x32x256.Idx) (k : dot_S1024x32x128_S1024x256x128_S1024x32x256_2_2_1_1_0_0.contr.Idx) :
    (dot_S1024x32x128_S1024x256x128_S1024x32x256_2_2_1_1_0_0.lhsIdx j k 2).val = (k ⟨0, Nat.one_pos⟩).val := rfl
theorem dots_rhs_0 (j : S1024x32x256.Idx) (k : dot_S1024x32x128_S1024x256x128_S1024x32x256_2_2_1_1_0_0.contr.Idx) :
    (dot_S1024x32x128_S1024x256x128_S1024x32x256_2_2_1_1_0_0.rhsIdx j k 0).val = (j 0).val := rfl
theorem dots_rhs_1 (j : S1024x32x256.Idx) (k : dot_S1024x32x128_S1024x256x128_S1024x32x256_2_2_1_1_0_0.contr.Idx) :
    (dot_S1024x32x128_S1024x256x128_S1024x32x256_2_2_1_1_0_0.rhsIdx j k 1).val = (j 2).val := rfl
theorem dots_rhs_2 (j : S1024x32x256.Idx) (k : dot_S1024x32x128_S1024x256x128_S1024x32x256_2_2_1_1_0_0.contr.Idx) :
    (dot_S1024x32x128_S1024x256x128_S1024x32x256_2_2_1_1_0_0.rhsIdx j k 2).val = (k ⟨0, Nat.one_pos⟩).val := rfl

/-- The batched product at (r, q, d): the dot product of query vector q and document vector d of row r. -/
theorem dots_apply (qe : FVec Ideal S1024x32x128 .f32) (de : FVec Ideal S1024x256x128 .f32) (r : Fin 1024) (q : Fin 32)
    (d : Fin 256) :
    Host.dotGeneral (F := Ideal) dot_S1024x32x128_S1024x256x128_S1024x32x256_2_2_1_1_0_0 none qe de (ix3 r q d)
      = ∑ e : Fin 128, qe (ix3 r q e) * de (ix3 r d e) := by
  show FloatOps.dotGeneral _ none _ qe de (ix3 r q d) = _
  rw [Ideal.dotGeneral_apply,
    ← Equiv.sum_comp (contrEquiv1 dot_S1024x32x128_S1024x256x128_S1024x32x256_2_2_1_1_0_0 128 rfl rfl).symm]
  refine Finset.sum_congr rfl fun e _ => ?_
  have ce := contrEquiv1_symm_val dot_S1024x32x128_S1024x256x128_S1024x32x256_2_2_1_1_0_0 128 rfl rfl e
  have hl : dot_S1024x32x128_S1024x256x128_S1024x32x256_2_2_1_1_0_0.lhsIdx (ix3 r q d)
      ((contrEquiv1 dot_S1024x32x128_S1024x256x128_S1024x32x256_2_2_1_1_0_0 128 rfl rfl).symm e) = ix3 r q e := by
    funext a; apply Fin.ext
    match a with
    | ⟨0, _⟩ => exact dots_lhs_0 _ _
    | ⟨1, _⟩ => exact dots_lhs_1 _ _
    | ⟨2, _⟩ => exact (dots_lhs_2 _ _).trans ce
  have hr : dot_S1024x32x128_S1024x256x128_S1024x32x256_2_2_1_1_0_0.rhsIdx (ix3 r q d)
      ((contrEquiv1 dot_S1024x32x128_S1024x256x128_S1024x32x256_2_2_1_1_0_0 128 rfl rfl).symm e) = ix3 r d e := by
    funext a; apply Fin.ext
    match a with
    | ⟨0, _⟩ => exact dots_rhs_0 _ _
    | ⟨1, _⟩ => exact dots_rhs_1 _ _
    | ⟨2, _⟩ => exact (dots_rhs_2 _ _).trans ce
  rw [hl, hr]

/-! The operand indices of the product with the weight column, axis by axis. -/

theorem lin_lhs_0 (j : S1024x1.Idx) (k : dot_S1024x11_S11x1_S1024x1_1_0_0_1_n_n.contr.Idx) :
    (dot_S1024x11_S11x1_S1024x1_1_0_0_1_n_n.lhsIdx j k 0).val = (j 0).val := rfl
theorem lin_lhs_1 (j : S1024x1.Idx) (k : dot_S1024x11_S11x1_S1024x1_1_0_0_1_n_n.contr.Idx) :
    (dot_S1024x11_S11x1_S1024x1_1_0_0_1_n_n.lhsIdx j k 1).val = (k ⟨0, Nat.one_pos⟩).val := rfl
theorem lin_rhs_0 (j : S1024x1.Idx) (k : dot_S1024x11_S11x1_S1024x1_1_0_0_1_n_n.contr.Idx) :
    (dot_S1024x11_S11x1_S1024x1_1_0_0_1_n_n.rhsIdx j k 0).val = (k ⟨0, Nat.one_pos⟩).val := rfl
theorem lin_rhs_1 (j : S1024x1.Idx) (k : dot_S1024x11_S11x1_S1024x1_1_0_0_1_n_n.contr.Idx) :
    (dot_S1024x11_S11x1_S1024x1_1_0_0_1_n_n.rhsIdx j k 1).val = (j 1).val := rfl

/-- The product with the weight column at (r, z): the sum over the eleven bumps of pooled value times weight. -/
theorem lin_apply (p : FVec Ideal S1024x11 .f32) (wt : FVec Ideal S11x1 .f32) (r : Fin 1024) (z : Fin 1) :
    Host.dotGeneral (F := Ideal) dot_S1024x11_S11x1_S1024x1_1_0_0_1_n_n none p wt (ix2 r z)
      = ∑ k : Fin 11, p (ix2 r k) * wt (ix2 k z) := by
  show FloatOps.dotGeneral _ none _ p wt (ix2 r z) = _
  rw [Ideal.dotGeneral_apply, ← Equiv.sum_comp (contrEquiv1 dot_S1024x11_S11x1_S1024x1_1_0_0_1_n_n 11 rfl rfl).symm]
  refine Finset.sum_congr rfl fun k _ => ?_
  have ck := contrEquiv1_symm_val dot_S1024x11_S11x1_S1024x1_1_0_0_1_n_n 11 rfl rfl k
  have hl : dot_S1024x11_S11x1_S1024x1_1_0_0_1_n_n.lhsIdx (ix2 r z)
      ((contrEquiv1 dot_S1024x11_S11x1_S1024x1_1_0_0_1_n_n 11 rfl rfl).symm k) = ix2 r k := by
    funext a; apply Fin.ext
    match a with
    | ⟨0, _⟩ => exact lin_lhs_0 _ _
    | ⟨1, _⟩ => exact (lin_lhs_1 _ _).trans ck
  have hr : dot_S1024x11_S11x1_S1024x1_1_0_0_1_n_n.rhsIdx (ix2 r z)
      ((contrEquiv1 dot_S1024x11_S11x1_S1024x1_1_0_0_1_n_n 11 rfl rfl).symm k) = ix2 k z := by
    funext a; apply Fin.ext
    match a with
    | ⟨0, _⟩ => exact (lin_rhs_0 _ _).trans ck
    | ⟨1, _⟩ => exact lin_rhs_1 _ _
  rw [hl, hr]

/-! ## The broadcasts and the transpose, read at an index -/

/-- A scalar constant broadcast to any shape reads the extended real its word encodes. -/
theorem bcast_const_apply {T : Shape} (h : S_.BroadcastsInDim T ![]) (c : BitVec 32) (j : T.Idx) :
    broadcastInDim T ![] h (constant (F := Ideal) S_ .f32 c) j = Ideal.ofBits .f32 c := by
  rw [broadcastInDim_scalar_apply, constant_apply]

/-- The query norms laid along the document axis: (r, q, d) reads (r, q). -/
theorem bcast_q_apply (x : FVec Ideal S1024x32 .f32) (r : Fin 1024) (q : Fin 32) (d : Fin 256) :
    broadcastInDim S1024x32x256 ![0, 1, 2] Facts₀.bcast_S1024x32x1_S1024x32x256_0_1_2
        (broadcastInDim S1024x32x1 ![0, 1] Facts₀.bcast_S1024x32_S1024x32x1_0_1 x) (ix3 r q d) = x (ix2 r q) := by
  rw [broadcastInDim_apply _ _ _ (ix3 r q d) (ix3 r q (0 : Fin 1))
      (fun a => match a with | ⟨0, _⟩ => rfl | ⟨1, _⟩ => rfl | ⟨2, _⟩ => rfl),
    broadcastInDim_apply _ _ _ (ix3 r q (0 : Fin 1)) (ix2 r q) (fun a => match a with | ⟨0, _⟩ => rfl | ⟨1, _⟩ => rfl)]

/-- The document norms laid along the query axis: (r, q, d) reads (r, d). -/
theorem bcast_d_apply (y : FVec Ideal S1024x256 .f32) (r : Fin 1024) (q : Fin 32) (d : Fin 256) :
    broadcastInDim S1024x32x256 ![0, 1, 2] Facts₀.bcast_S1024x1x256_S1024x32x256_0_1_2
        (broadcastInDim S1024x1x256 ![0, 2] Facts₀.bcast_S1024x256_S1024x1x256_0_2 y) (ix3 r q d) = y (ix2 r d) := by
  rw [broadcastInDim_apply _ _ _ (ix3 r q d) (ix3 r (0 : Fin 1) d)
      (fun a => match a with | ⟨0, _⟩ => rfl | ⟨1, _⟩ => rfl | ⟨2, _⟩ => rfl),
    broadcastInDim_apply _ _ _ (ix3 r (0 : Fin 1) d) (ix2 r d) (fun a => match a with | ⟨0, _⟩ => rfl | ⟨1, _⟩ => rfl)]

/-- The similarities laid along the bump axis: (r, q, d, k) reads (r, q, d). -/
theorem bcast_s_apply (s : FVec Ideal S1024x32x256 .f32) (r : Fin 1024) (q : Fin 32) (d : Fin 256) (k : Fin 11) :
    broadcastInDim S1024x32x256x11 ![0, 1, 2, 3] Facts₀.bcast_S1024x32x256x1_S1024x32x256x11_0_1_2_3
        (broadcastInDim S1024x32x256x1 ![0, 1, 2] Facts₀.bcast_S1024x32x256_S1024x32x256x1_0_1_2 s) (ix4 r q d k)
      = s (ix3 r q d) := by
  rw [broadcastInDim_apply _ _ _ (ix4 r q d k) (ix4 r q d (0 : Fin 1))
      (fun a => match a with | ⟨0, _⟩ => rfl | ⟨1, _⟩ => rfl | ⟨2, _⟩ => rfl | ⟨3, _⟩ => rfl),
    broadcastInDim_apply _ _ _ (ix4 r q d (0 : Fin 1)) (ix3 r q d)
      (fun a => match a with | ⟨0, _⟩ => rfl | ⟨1, _⟩ => rfl | ⟨2, _⟩ => rfl)]

/-- A table of eleven numbers laid over rows, queries and documents: (r, q, d, k) reads entry k. -/
theorem bcast_k_apply (v : FVec Ideal S11 .f32) (r : Fin 1024) (q : Fin 32) (d : Fin 256) (k : Fin 11) :
    broadcastInDim S1024x32x256x11 ![0, 1, 2, 3] Facts₀.bcast_S1x1x1x11_S1024x32x256x11_0_1_2_3
        (broadcastInDim S1x1x1x11 ![3] Facts₀.bcast_S11_S1x1x1x11_3 v) (ix4 r q d k) = v (ix1 k) := by
  rw [broadcastInDim_apply _ _ _ (ix4 r q d k) (ix4 (0 : Fin 1) (0 : Fin 1) (0 : Fin 1) k)
      (fun a => match a with | ⟨0, _⟩ => rfl | ⟨1, _⟩ => rfl | ⟨2, _⟩ => rfl | ⟨3, _⟩ => rfl),
    broadcastInDim_apply _ _ _ (ix4 (0 : Fin 1) (0 : Fin 1) (0 : Fin 1) k) (ix1 k) (fun a => match a with | ⟨0, _⟩ => rfl)]

/-- The bias laid over the rows: (r, z) reads the one entry. -/
theorem bcast_b_apply (b : FVec Ideal S1 .f32) (r : Fin 1024) (z : Fin 1) :
    broadcastInDim S1024x1 ![0, 1] Facts₀.bcast_S1x1_S1024x1_0_1 (broadcastInDim S1x1 ![1] Facts₀.bcast_S1_S1x1_1 b) (ix2 r z)
      = b (ix1 0) := by
  rw [broadcastInDim_apply _ _ _ (ix2 r z) (ix2 (0 : Fin 1) (0 : Fin 1)) (fun a => match a with | ⟨0, _⟩ => rfl | ⟨1, _⟩ => rfl),
    broadcastInDim_apply _ _ _ (ix2 (0 : Fin 1) (0 : Fin 1)) (ix1 (0 : Fin 1)) (fun a => match a with | ⟨0, _⟩ => rfl)]

/-! ## The similarities -/

/-- The similarity at (r, q, d) is the cosine similarity, with its floored denominator, of query vector q and document
    vector d of row r. -/
theorem sim_apply (qe : FVec Ideal S1024x32x128 .f32) (de : FVec Ideal S1024x256x128 .f32) (r : Fin 1024) (q : Fin 32)
    (d : Fin 256) :
    Ref.sim qe de (ix3 r q d) = Knrm.cosSim (fun e => qe (ix3 r q e)) (fun e => de (ix3 r d e)) := by
  unfold Ref.sim Knrm.cosSim
  rw [hostDivf_apply, dots_apply, maximumf_apply, mulf_apply, bcast_q_apply, bcast_d_apply, bcast_const_apply, norm32_apply,
    norm256_apply]

/-! ## The standardised distances -/

/-- The row-major position of a one-axis index is its coordinate. -/
theorem rowMajor_ix1 (k : Fin 11) : S11.rowMajor (ix1 k) = k := Fin.ext (Shape.rowMajor_val_one _)

/-- The reference's table of centres is the specification's. -/
theorem lit0_eq : ∀ k : Fin 11, lit0 k = Knrm.centre k := by decide
/-- The reference's table of widths is the specification's. -/
theorem lit1_eq : ∀ k : Fin 11, lit1 k = Knrm.width k := by decide

/-- The standardised distance at (r, q, d, k): the similarity at (r, q, d) less centre k, over width k. -/
theorem zscore_apply (s : FVec Ideal S1024x32x256 .f32) (r : Fin 1024) (q : Fin 32) (d : Fin 256) (k : Fin 11) :
    Ref.zscore s (ix4 r q d k)
      = Ideal.div (s (ix3 r q d) - Ideal.ofBits .f32 (Knrm.centre k)) (Ideal.ofBits .f32 (Knrm.width k)) := by
  unfold Ref.zscore
  rw [hostDivf_apply, subf_apply, bcast_s_apply, bcast_k_apply, bcast_k_apply]
  rw [rowMajor_ix1, lit0_eq, lit1_eq]
  rfl

/-! ## The pooled bumps -/

/-- The pooled value at (r, k): bump k over the similarities of row r, summed over documents, log (1 + ·), summed over
    queries. -/
theorem pooled_apply (s : FVec Ideal S1024x32x256 .f32) (r : Fin 1024) (k : Fin 11) :
    Ref.pooled s (ix2 r k) = Knrm.pooled k (fun q d => s (ix3 r q d)) := by
  have h1 : S1024x32x11.Reduces [1] S1024x11 := by decide
  have h2 : S1024x32x256x11.Reduces [2] S1024x32x11 := by decide
  unfold Ref.pooled Knrm.pooled
  rw [hostReduceAdd_zero_apply _ _ h1]
  show ∑ q : Fin 32, Host.log1p (F := Ideal) _ (h1.lift (ix2 r k) q) = _
  refine Finset.sum_congr rfl fun q _ => ?_
  have hi1 : h1.lift (ix2 r k) q = ix3 r q k :=
    funext fun a => Fin.ext (match a with | ⟨0, _⟩ => rfl | ⟨1, _⟩ => rfl | ⟨2, _⟩ => rfl)
  rw [hi1, hostLog1p_apply, hostReduceAdd_zero_apply _ _ h2]
  refine congrArg Ideal.log1p ?_
  show ∑ d : Fin 256, Host.exp (F := Ideal) _ (h2.lift (ix3 r q k) d) = _
  refine Finset.sum_congr rfl fun d _ => ?_
  have hi2 : h2.lift (ix3 r q k) d = ix4 r q d k :=
    funext fun a => Fin.ext (match a with | ⟨0, _⟩ => rfl | ⟨1, _⟩ => rfl | ⟨2, _⟩ => rfl | ⟨3, _⟩ => rfl)
  rw [hi2, hostExp_apply, mulf_apply, mulf_apply, bcast_const_apply, zscore_apply]
  rfl

/-! ## The logits and the score -/

/-- The logit of row r: the eleven pooled values against the weights, plus the bias. -/
theorem logits_apply (qe : FVec Ideal S1024x32x128 .f32) (de : FVec Ideal S1024x256x128 .f32) (w : FVec Ideal S1x11 .f32)
    (b : FVec Ideal S1 .f32) (r : Fin 1024) (z : Fin 1) :
    Ref.logits qe de w b (ix2 r z)
      = Knrm.logit (fun q d => Knrm.cosSim (fun e => qe (ix3 r q e)) (fun e => de (ix3 r d e))) (fun k => w (ix2 0 k))
          (b (ix1 0)) := by
  obtain rfl : z = 0 := Subsingleton.elim _ _
  unfold Ref.logits Knrm.logit
  rw [addf_apply, lin_apply, bcast_b_apply]
  refine congrArg (· + b (ix1 0)) (Finset.sum_congr rfl fun k _ => ?_)
  rw [pooled_apply, transpose_ix2_apply]
  simp only [sim_apply]

/-- The score term at row `i 0` is the specification's row score. -/
theorem score_apply (qe1 : FVec Ideal S1024x32x128 .f32) (de1 : FVec Ideal S1024x256x128 .f32)
    (qe2 : FVec Ideal S1024x32x128 .f32) (de2 : FVec Ideal S1024x256x128 .f32) (w : FVec Ideal S1x11 .f32)
    (b : FVec Ideal S1 .f32) (i : S1024x1.Idx) :
    Ref.score (Ref.logits qe1 de1 w b) (Ref.logits qe2 de2 w b) i = Knrm.outAt qe1 de1 qe2 de2 w b (i 0) := by
  obtain ⟨r, z, rfl⟩ : ∃ (r : Fin 1024) (z : Fin 1), i = ix2 r z := ⟨i 0, i 1, eq_ix2 i⟩
  unfold Ref.score Knrm.outAt
  rw [hostDivf_apply, addf_apply, bcast_const_apply, hostExp_apply, hostNegf_apply, subf_apply, logits_apply, logits_apply,
    Ideal.ofBits_one_f32]
  rfl

end Cert.ReferenceIdeal.RefValue

end
-- ==== Proof.lean ====
/-
  The kernel computes, for each of 1024 batch rows, a relevance score of two (query, document) pairs: cosine similarities
  of looked-up embedding rows, eleven Gaussian bumps pooled over documents and queries, a linear layer, and the logistic
  function of the difference of the two logits.  It looks the rows up on the host and scores 64 batch rows per grid point;
  the reference does the same arithmetic on whole arrays with the eleven bumps along a fourth axis.

  On the extended reals the two results are equal row by row: sums do not depend on their order or grouping, and every other
  operation is applied to equal arguments in the same order.  The one place the programs differ is the lookup: the kernel's
  replaces a row whose index is out of range by a fill value where the reference's clamps the index, so the claim is stated
  for indices that name a row of the table (from either end), where both are the plain gather.
-/
import proofs.«407696_j63891933495509_2_alg».proof.Defs
import proofs.«407696_j63891933495509_2_alg».proof.Proof.Gen.Kernel.Frame
import proofs.«407696_j63891933495509_2_alg».proof.Proof.Gen.KernelIdeal.Frame
import proofs.«407696_j63891933495509_2_alg».proof.Proof.Gen.ReferenceIdeal
import proofs.«407696_j63891933495509_2_alg».proof.Proof.Gen.Pre_finite_inputs
import proofs.«407696_j63891933495509_2_alg».proof.Proof.KernelBlocks
import proofs.«407696_j63891933495509_2_alg».proof.Proof.RefRun
import proofs.«407696_j63891933495509_2_alg».proof.Proof.RefValue
import Idealize.ShloMosaic.Adequacy
import Idealize.ShloMosaic.Init

noncomputable section

namespace Cert.Proof

open Idealize.ShloMosaic Idealize.SL.Sem

/-- The two programs' wrapped row lookups are the same term. -/
theorem rows32_eq (emb : FVec Ideal Cert.KernelIdeal.S100000x128 .f32) (q : IVec Cert.KernelIdeal.S1024x32 32) :
    Cert.ReferenceIdeal.Ref.rows32 emb q = Cert.KernelIdeal.Krn.rows32 emb q := rfl

theorem rows256_eq (emb : FVec Ideal Cert.KernelIdeal.S100000x128 .f32) (d : IVec Cert.KernelIdeal.S1024x256 32) :
    Cert.ReferenceIdeal.Ref.rows256 emb d = Cert.KernelIdeal.Krn.rows256 emb d := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Run.run (F := Ideal) m ρ)

/-- Both runs end with the result array at the row score of the looked-up rows. -/
theorem algebraic : Cert.algebraic_KernelIdeal_ReferenceIdeal := by
  intro m ρ m' ρ' hpre hagree
  refine ⟨_, Cert.KernelIdeal.Blocks.run m ρ hpre, ?_⟩
  refine (θ_run Cert.ReferenceIdeal.defs _ _).mono (fun _ h c => ⟨(h c).1.trans ?_, (h c).2⟩)
    (Cert.ReferenceIdeal.Run.run (F := Ideal) m' ρ')
  obtain ⟨h0, h1, h2, h3, h4, h5, h6⟩ := hagree c
  rw [h0, h1, h2, h3, h4, h5, h6]
  funext i
  unfold Cert.ReferenceIdeal.Ref.result
  rw [Cert.ReferenceIdeal.RefValue.score_apply, rows32_eq, rows256_eq, rows32_eq, rows256_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
